-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x16 : Shape := ⟨2, ![2097152, 16]⟩
abbrev S2097152 : Shape := ⟨1, ![2097152]⟩
abbrev S_ : Shape := ⟨0, ![]⟩

class Facts : Prop where
  bcast_S_S2097152x16 : S_.BroadcastsInDim S2097152x16 (![] : Fin 0 → Fin S2097152x16.rank)
  reducesTo_S2097152x16_S_d0_1 : S2097152x16.ReducesTo [0, 1] S_
  h_S_ : 0 < S_.numel
  bcast_S_S2097152 : S_.BroadcastsInDim S2097152 (![] : Fin 0 → Fin S2097152.rank)
  reducesTo_S2097152_S_d0 : S2097152.ReducesTo [0] S_

variable [Facts]

def fn {F : FTy → Type} [FloatOps F] (main_arg0 : FVec F S2097152x16 .f32) (main_arg1 : IVec S2097152 32) : IVec S_ 1 :=
  let main_v0 : FVec F S2097152x16 .f32 := Host.absf main_arg0
  let main_cst : FVec F S_ .f32 := constant S_ .f32 0x7F800000#32
  let main_v1 : FVec F S2097152x16 .f32 := broadcastInDim S2097152x16 ![] bcast_S_S2097152x16 main_cst
  let main_v2 : IVec S2097152x16 1 := cmpf .olt main_v0 main_v1
  let main_c : IVec S_ 1 := constantI S_ 1 1#1
  let main_v3 : IVec S_ 1 := (fun x v => Host.reduce IntOp.andi x v reducesTo_S2097152x16_S_d0_1 h_S_) main_v2 main_c
  let main_c_0 : IVec S_ 32 := constantI S_ 32 0#32
  let main_v4 : IVec S2097152 32 := broadcastInDim S2097152 ![] bcast_S_S2097152 main_c_0
  let main_v5 : IVec S2097152 1 := cmpi .sge main_arg1 main_v4
  let main_c_1 : IVec S_ 32 := constantI S_ 32 16#32
  let main_v6 : IVec S2097152 32 := broadcastInDim S2097152 ![] bcast_S_S2097152 main_c_1
  let main_v7 : IVec S2097152 1 := cmpi .slt main_arg1 main_v6
  let main_v8 : IVec S2097152 1 := andi main_v5 main_v7
  let main_c_2 : IVec S_ 1 := constantI S_ 1 1#1
  let main_v9 : IVec S_ 1 := (fun x v => Host.reduce IntOp.andi x v reducesTo_S2097152_S_d0 h_S_) main_v8 main_c_2
  let main_v10 : IVec S_ 1 := andi main_v3 main_v9
  main_v10
-- ==== Kernel.lean ====
abbrev S2097152x16 : Shape := ⟨2, ![2097152, 16]⟩
abbrev S2097152 : Shape := ⟨1, ![2097152]⟩
abbrev S2097152x1 : Shape := ⟨2, ![2097152, 1]⟩
abbrev S1x1 : Shape := ⟨2, ![1, 1]⟩
abbrev S2048x16 : Shape := ⟨2, ![2048, 16]⟩
abbrev S2048x1 : Shape := ⟨2, ![2048, 1]⟩
abbrev S2048 : Shape := ⟨1, ![2048]⟩
abbrev S1 : Shape := ⟨1, ![1]⟩
abbrev S_ : Shape := ⟨0, ![]⟩

abbrev nBuf : Space → Nat
  | .hbm => 29
  | .vmem => 8
  | .smem => 0
  | _ => 0

abbrev bufTy : (tb : Table) → Fin (tcTables nBuf tb) → BufTy
  | .hbm, ⟨0, _⟩ => ⟨S2097152x16, .f32⟩
  | .hbm, ⟨1, _⟩ => ⟨S2097152, .i32⟩
  | .hbm, ⟨2, _⟩ => ⟨S2097152x1, .i32⟩
  | .hbm, ⟨3, _⟩ => ⟨S2097152x16, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S_, .i32⟩
  | .hbm, ⟨12, _⟩ => ⟨S2097152, .i32⟩
  | .hbm, ⟨13, _⟩ => ⟨S2097152, .i1⟩
  | .hbm, ⟨14, _⟩ => ⟨S_, .i32⟩
  | .hbm, ⟨15, _⟩ => ⟨S2097152, .i32⟩
  | .hbm, ⟨16, _⟩ => ⟨S2097152, .i32⟩
  | .hbm, ⟨17, _⟩ => ⟨S2097152, .i32⟩
  | .hbm, ⟨18, _⟩ => ⟨S2097152x1, .i32⟩
  | .hbm, ⟨19, _⟩ => ⟨S2097152x16, .f32⟩
  | .hbm, ⟨20, _⟩ => ⟨S_, .i32⟩
  | .hbm, ⟨21, _⟩ => ⟨S2097152, .i32⟩
  | .hbm, ⟨22, _⟩ => ⟨S2097152, .i1⟩
  | .hbm, ⟨23, _⟩ => ⟨S_, .i32⟩
  | .hbm, ⟨24, _⟩ => ⟨S2097152, .i32⟩
  | .hbm, ⟨25, _⟩ => ⟨S2097152, .i32⟩
  | .hbm, ⟨26, _⟩ => ⟨S2097152, .i32⟩
  | .hbm, ⟨27, _⟩ => ⟨S2097152x1, .i32⟩
  | .hbm, ⟨28, _⟩ => ⟨S2097152, .i32⟩
  | .local _ .vmem, ⟨0, _⟩ => ⟨S2048x16, .f32⟩
  | .local _ .vmem, ⟨1, _⟩ => ⟨S2048x16, .f32⟩
  | .local _ .vmem, ⟨2, _⟩ => ⟨S2048x1, .i32⟩
  | .local _ .vmem, ⟨3, _⟩ => ⟨S2048x1, .i32⟩
  | .local _ .vmem, ⟨4, _⟩ => ⟨S2048x16, .f32⟩
  | .local _ .vmem, ⟨5, _⟩ => ⟨S2048x16, .f32⟩
  | .local _ .vmem, ⟨6, _⟩ => ⟨S1x1, .f32⟩
  | .local _ .vmem, ⟨7, _⟩ => ⟨S1x1, .f32⟩
  | _, _ => ⟨S2097152x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_v0 : Ref sig .tc := ⟨.hbm, 8, rfl⟩
abbrev main_call0_v1_0 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![1024], ![false]⟩

def k0_cond2 (i : grid0.Coords) : BitVec 1 :=
  let arg0 : BitVec 32 := BitVec.ofNat 32 (i 0).val
  let c1023_i32 : BitVec 32 := 1023#32
  let v58 : BitVec 1 := Scalar.cmpi .eq arg0 c1023_i32
  let v59 : BitVec 32 := Scalar.extui v58
  let c0_i32_25 : BitVec 32 := 0#32
  let v60 : BitVec 1 := Scalar.cmpi .ne v59 c0_i32_25
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S2097152_S2097152x1 : S2097152.ShapeCasts S2097152x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x16_S2048x16_0_0 : ∀ a, (![0, 0] : Fin 2 → Nat) a + S2048x16.size a ≤ S2048x16.size a
  h_S2048x16 : 0 < S2048x16.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x16_d1_w32 : S2048x16.Iotas .tc 32 [1]
  broadcasts_S2048x1_S2048x16 : S2048x1.Broadcasts S2048x16
  reduces_S2048x16_S2048 : S2048x16.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  bcast_S_S2097152 : S_.BroadcastsInDim S2097152 (![] : Fin 0 → Fin S2097152.rank)
  bcast_S2097152_S2097152x1_0 : S2097152.BroadcastsInDim S2097152x1 (![0] : Fin 1 → Fin S2097152x1.rank)
  gather_S2097152x16_S2097152x1_S2097152x16_1_0_n_n_0_1_116_wf : GatherDims.WF S2097152x16 S2097152x1 S2097152x16 [1] [0] [] [0] [] 1 ![1, 16]
  gather_S2097152_S2097152x1_S2097152_n_0_n_n_0_1_1_wf : GatherDims.WF S2097152 S2097152x1 S2097152 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S2097152x16.size a
  hwx0_0 : ∀ i : grid0.Coords, EltTy.bits .f32 = 32 ∨ (Rect.block (s := S2097152x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S2097152x1.size a
  hwx0_1 : ∀ i : grid0.Coords, EltTy.bits .i32 = 32 ∨ (Rect.block (s := S2097152x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S2097152x16.size a
  hwx0_2 : ∀ i : grid0.Coords, EltTy.bits .f32 = 32 ∨ (Rect.block (s := S2097152x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S2097152x16_S2097152x1_S2097152x16_1_0_n_n_0_1_116 : GatherDims S2097152x16 S2097152x1 S2097152x16 where
  offsetDims := [1]
  collapsedSliceDims := [0]
  operandBatchingDims := []
  startIndicesBatchingDims := []
  startIndexMap := [0]
  indexVectorDim := 1
  sliceSizes := ![1, 16]
  wf := gather_S2097152x16_S2097152x1_S2097152x16_1_0_n_n_0_1_116_wf
def gather_S2097152_S2097152x1_S2097152_n_0_n_n_0_1_1 : GatherDims S2097152 S2097152x1 S2097152 where
  offsetDims := []
  collapsedSliceDims := [0]
  operandBatchingDims := []
  startIndicesBatchingDims := []
  startIndexMap := [0]
  indexVectorDim := 1
  sliceSizes := ![1]
  wf := gather_S2097152_S2097152x1_S2097152_n_0_n_n_0_1_1_wf

abbrev win0_0 : Pipeline.Window sig grid0 :=
  Pipeline.Window.ofSpec (Memref.whole main_arg0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2097152x16 : Shape := ⟨2, ![2097152, 16]⟩
abbrev S2097152 : Shape := ⟨1, ![2097152]⟩
abbrev S_ : Shape := ⟨0, ![]⟩
abbrev S2097152x1 : Shape := ⟨2, ![2097152, 1]⟩
abbrev S2097152x2 : Shape := ⟨2, ![2097152, 2]⟩

abbrev nBuf : Space → Nat
  | .hbm => 123
  | .vmem => 0
  | .smem => 0
  | _ => 0

abbrev bufTy : (tb : Table) → Fin (tcTables nBuf tb) → BufTy
  | .hbm, ⟨0, _⟩ => ⟨S2097152x16, .f32⟩
  | .hbm, ⟨1, _⟩ => ⟨S2097152, .i32⟩
  | .hbm, ⟨2, _⟩ => ⟨S2097152, .i32⟩
  | .hbm, ⟨3, _⟩ => ⟨S_, .i32⟩
  | .hbm, ⟨4, _⟩ => ⟨S2097152, .i32⟩
  | .hbm, ⟨5, _⟩ => ⟨S2097152, .i1⟩
  | .hbm, ⟨6, _⟩ => ⟨S_, .i32⟩
  | .hbm, ⟨7, _⟩ => ⟨S2097152, .i32⟩
  | .hbm, ⟨8, _⟩ => ⟨S2097152, .i32⟩
  | .hbm, ⟨9, _⟩ => ⟨S2097152, .i32⟩
  | .hbm, ⟨10, _⟩ => ⟨S_, .i32⟩
  | .hbm, ⟨11, _⟩ => ⟨S2097152, .i32⟩
  | .hbm, ⟨12, _⟩ => ⟨S2097152, .i1⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S2097152, .i32⟩
  | .hbm, ⟨17, _⟩ => ⟨S2097152x1, .i32⟩
  | .hbm, ⟨18, _⟩ => ⟨S2097152x1, .i32⟩
  | .hbm, ⟨19, _⟩ => ⟨S2097152x2, .i32⟩
  | .hbm, ⟨20, _⟩ => ⟨S2097152, .f32⟩
  | .hbm, ⟨21, _⟩ => ⟨S_, .f32⟩
  | .hbm, ⟨22, _⟩ => ⟨S2097152, .f32⟩
  | .hbm, ⟨23, _⟩ => ⟨S2097152, .i1⟩
  | .hbm, ⟨24, _⟩ => ⟨S_, .f32⟩
  | .hbm, ⟨25, _⟩ => ⟨S2097152, .f32⟩
  | .hbm, ⟨26, _⟩ => ⟨S2097152, .f32⟩
  | .hbm, ⟨27, _⟩ => ⟨S_, .f32⟩
  | .hbm, ⟨28, _⟩ => ⟨S2097152, .f32⟩
  | .hbm, ⟨29, _⟩ => ⟨S2097152, .f32⟩
  | .hbm, ⟨30, _⟩ => ⟨S_, .f32⟩
  | .hbm, ⟨31, _⟩ => ⟨S2097152, .f32⟩
  | .hbm, ⟨32, _⟩ => ⟨S2097152, .f32⟩
  | .hbm, ⟨33, _⟩ => ⟨S_, .f32⟩
  | .hbm, ⟨34, _⟩ => ⟨S2097152, .f32⟩
  | .hbm, ⟨35, _⟩ => ⟨S2097152, .f32⟩
  | .hbm, ⟨36, _⟩ => ⟨S2097152, .f32⟩
  | .hbm, ⟨37, _⟩ => ⟨S_, .i32⟩
  | .hbm, ⟨38, _⟩ => ⟨S2097152, .i32⟩
  | .hbm, ⟨39, _⟩ => ⟨S2097152, .i1⟩
  | .hbm, ⟨40, _⟩ => ⟨S_, .i32⟩
  | .hbm, ⟨41, _⟩ => ⟨S2097152, .i32⟩
  | .hbm, ⟨42, _⟩ => ⟨S2097152, .i32⟩
  | .hbm, ⟨43, _⟩ => ⟨S2097152, .i32⟩
  | .hbm, ⟨44, _⟩ => ⟨S_, .i32⟩
  | .hbm, ⟨45, _⟩ => ⟨S2097152, .i32⟩
  | .hbm, ⟨46, _⟩ => ⟨S2097152, .i1⟩
  | .hbm, ⟨47, _⟩ => ⟨S_, .i32⟩
  | .hbm, ⟨48, _⟩ => ⟨S2097152, .i32⟩
  | .hbm, ⟨49, _⟩ => ⟨S2097152, .i32⟩
  | .hbm, ⟨50, _⟩ => ⟨S2097152, .i32⟩
  | .hbm, ⟨51, _⟩ => ⟨S2097152x1, .i32⟩
  | .hbm, ⟨52, _⟩ => ⟨S2097152x1, .i32⟩
  | .hbm, ⟨53, _⟩ => ⟨S2097152x2, .i32⟩
  | .hbm, ⟨54, _⟩ => ⟨S2097152x16, .f32⟩
  | .hbm, ⟨55, _⟩ => ⟨S2097152, .i32⟩
  | .hbm, ⟨56, _⟩ => ⟨S2097152, .i32⟩
  | .hbm, ⟨57, _⟩ => ⟨S2097152, .i32⟩
  | .hbm, ⟨58, _⟩ => ⟨S_, .i32⟩
  | .hbm, ⟨59, _⟩ => ⟨S2097152, .i32⟩
  | .hbm, ⟨60, _⟩ => ⟨S2097152, .i1⟩
  | .hbm, ⟨61, _⟩ => ⟨S_, .i32⟩
  | .hbm, ⟨62, _⟩ => ⟨S2097152, .i32⟩
  | .hbm, ⟨63, _⟩ => ⟨S2097152, .i32⟩
  | .hbm, ⟨64, _⟩ => ⟨S2097152, .i32⟩
  | .hbm, ⟨65, _⟩ => ⟨S2097152x1, .i32⟩
  | .hbm, ⟨66, _⟩ => ⟨S2097152x16, .f32⟩
  | .hbm, ⟨67, _⟩ => ⟨S_, .i32⟩
  | .hbm, ⟨68, _⟩ => ⟨S2097152, .i32⟩
  | .hbm, ⟨69, _⟩ => ⟨S2097152, .i1⟩
  | .hbm, ⟨70, _⟩ => ⟨S_, .i32⟩
  | .hbm, ⟨71, _⟩ => ⟨S2097152, .i32⟩
  | .hbm, ⟨72, _⟩ => ⟨S2097152, .i32⟩
  | .hbm, ⟨73, _⟩ => ⟨S2097152, .i32⟩
  | .hbm, ⟨74, _⟩ => ⟨S2097152x1, .i32⟩
  | .hbm, ⟨75, _⟩ => ⟨S2097152, .i32⟩
  | .hbm, ⟨76, _⟩ => ⟨S_, .f32⟩
  | .hbm, ⟨77, _⟩ => ⟨S2097152, .f32⟩
  | .hbm, ⟨78, _⟩ => ⟨S_, .f32⟩
  | .hbm, ⟨79, _⟩ => ⟨S2097152, .f32⟩
  | .hbm, ⟨80, _⟩ => ⟨S2097152, .f32⟩
  | .hbm, ⟨81, _⟩ => ⟨S2097152x1, .f32⟩
  | .hbm, ⟨82, _⟩ => ⟨S2097152x16, .f32⟩
  | .hbm, ⟨83, _⟩ => ⟨S2097152x16, .f32⟩
  | .hbm, ⟨84, _⟩ => ⟨S2097152x16, .f32⟩
  | .hbm, ⟨85, _⟩ => ⟨S_, .f32⟩
  | .hbm, ⟨86, _⟩ => ⟨S2097152, .f32⟩
  | .hbm, ⟨87, _⟩ => ⟨S2097152x1, .f32⟩
  | .hbm, ⟨88, _⟩ => ⟨S2097152x1, .f32⟩
  | .hbm, ⟨89, _⟩ => ⟨S2097152x16, .f32⟩
  | .hbm, ⟨90, _⟩ => ⟨S2097152x16, .f32⟩
  | .hbm, ⟨91, _⟩ => ⟨S_, .i32⟩
  | .hbm, ⟨92, _⟩ => ⟨S2097152, .i32⟩
  | .hbm, ⟨93, _⟩ => ⟨S2097152, .i1⟩
  | .hbm, ⟨94, _⟩ => ⟨S_, .i32⟩
  | .hbm, ⟨95, _⟩ => ⟨S2097152, .i32⟩
  | .hbm, ⟨96, _⟩ => ⟨S2097152, .i32⟩
  | .hbm, ⟨97, _⟩ => ⟨S2097152, .i32⟩
  | .hbm, ⟨98, _⟩ => ⟨S_, .i32⟩
  | .hbm, ⟨99, _⟩ => ⟨S2097152, .i32⟩
  | .hbm, ⟨100, _⟩ => ⟨S2097152, .i1⟩
  | .hbm, ⟨101, _⟩ => ⟨S_, .i32⟩
  | .hbm, ⟨102, _⟩ => ⟨S2097152, .i32⟩
  | .hbm, ⟨103, _⟩ => ⟨S2097152, .i32⟩
  | .hbm, ⟨104, _⟩ => ⟨S2097152, .i32⟩
  | .hbm, ⟨105, _⟩ => ⟨S2097152x1, .i32⟩
  | .hbm, ⟨106, _⟩ => ⟨S2097152x1, .i32⟩
  | .hbm, ⟨107, _⟩ => ⟨S2097152x2, .i32⟩
  | .hbm, ⟨108, _⟩ => ⟨S2097152, .f32⟩
  | .hbm, ⟨109, _⟩ => ⟨S_, .f32⟩
  | .hbm, ⟨110, _⟩ => ⟨S2097152, .f32⟩
  | .hbm, ⟨111, _⟩ => ⟨S2097152, .f32⟩
  | .hbm, ⟨112, _⟩ => ⟨S_, .f32⟩
  | .hbm, ⟨113, _⟩ => ⟨S2097152, .f32⟩
  | .hbm, ⟨114, _⟩ => ⟨S_, .f32⟩
  | .hbm, ⟨115, _⟩ => ⟨S2097152, .f32⟩
  | .hbm, ⟨116, _⟩ => ⟨S2097152, .f32⟩
  | .hbm, ⟨117, _⟩ => ⟨S2097152, .f32⟩
  | .hbm, ⟨118, _⟩ => ⟨S2097152, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S2097152x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_c_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_v0 : Ref sig .tc := ⟨.hbm, 55, rfl⟩
abbrev main_call1_v1_0 : Ref sig .tc := ⟨.hbm, 56, rfl⟩
abbrev main_v40 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_c_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_13 : Ref sig .tc := ⟨.hbm, 67, rfl⟩
abbrev main_v48 : Ref sig .tc := ⟨.hbm, 68, rfl⟩
abbrev main_v49 : Ref sig .tc := ⟨.hbm, 69, rfl⟩
abbrev main_c_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call2_cst : Ref sig .tc := ⟨.hbm, 76, rfl⟩
abbrev main_call2_v0 : Ref sig .tc := ⟨.hbm, 77, rfl⟩
abbrev main_call2_cst_0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_cst_1 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_v55 : Ref sig .tc := ⟨.hbm, 90, rfl⟩
abbrev main_c_15 : Ref sig .tc := ⟨.hbm, 91, rfl⟩
abbrev main_v56 : Ref sig .tc := ⟨.hbm, 92, rfl⟩
abbrev main_v57 : Ref sig .tc := ⟨.hbm, 93, rfl⟩
abbrev main_c_16 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_17 : Ref sig .tc := ⟨.hbm, 98, rfl⟩
abbrev main_v61 : Ref sig .tc := ⟨.hbm, 99, rfl⟩
abbrev main_v62 : Ref sig .tc := ⟨.hbm, 100, rfl⟩
abbrev main_c_18 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_19 : Ref sig .tc := ⟨.hbm, 109, rfl⟩
abbrev main_v70 : Ref sig .tc := ⟨.hbm, 110, rfl⟩
abbrev main_v71 : Ref sig .tc := ⟨.hbm, 111, rfl⟩
abbrev main_cst_20 : Ref sig .tc := ⟨.hbm, 112, rfl⟩
abbrev main_v72 : Ref sig .tc := ⟨.hbm, 113, rfl⟩
abbrev main_cst_21 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_22 : Ref sig .tc := ⟨.hbm, 119, rfl⟩
abbrev main_v77 : Ref sig .tc := ⟨.hbm, 120, rfl⟩
abbrev main_cst_23 : Ref sig .tc := ⟨.hbm, 121, rfl⟩
abbrev main_v78 : Ref sig .tc := ⟨.hbm, 122, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  reducesTo_S2097152x16_S2097152_d1 : S2097152x16.ReducesTo [1] S2097152
  h_S_ : 0 < S_.numel
  bcast_S2097152x1_S2097152x16_0_1 : S2097152x1.BroadcastsInDim S2097152x16 (![0, 1] : Fin 2 → Fin S2097152x16.rank)
  reducesTo_S2097152_S_d0 : S2097152.ReducesTo [0] S_
  gather_S2097152x16_S2097152x2_S2097152_n_01_n_n_01_1_11_wf : GatherDims.WF S2097152x16 S2097152x2 S2097152 [] [0, 1] [] [0, 1] [] 1 ![1, 1]
  scatter_S2097152x16_S2097152x2_S2097152_n_01_01_1_wf : ScatterDims.WF S2097152x16 S2097152x2 S2097152 [] [0, 1] [0, 1] 1
  gather_S2097152x16_S2097152x1_S2097152x16_1_0_n_n_0_1_116_wf : GatherDims.WF S2097152x16 S2097152x1 S2097152x16 [1] [0] [] [0] [] 1 ![1, 16]
  gather_S2097152_S2097152x1_S2097152_n_0_n_n_0_1_1_wf : GatherDims.WF S2097152 S2097152x1 S2097152 [] [0] [] [0] [] 1 ![1]

variable [Facts₀]

def gather_S2097152x16_S2097152x2_S2097152_n_01_n_n_01_1_11 : GatherDims S2097152x16 S2097152x2 S2097152 where
  offsetDims := []
  collapsedSliceDims := [0, 1]
  operandBatchingDims := []
  startIndicesBatchingDims := []
  startIndexMap := [0, 1]
  indexVectorDim := 1
  sliceSizes := ![1, 1]
  wf := gather_S2097152x16_S2097152x2_S2097152_n_01_n_n_01_1_11_wf
def scatter_S2097152x16_S2097152x2_S2097152_n_01_01_1 : ScatterDims S2097152x16 S2097152x2 S2097152 where
  updateWindowDims := []
  insertedWindowDims := [0, 1]
  scatterDimsToOperandDims := [0, 1]
  indexVectorDim := 1
  wf := scatter_S2097152x16_S2097152x2_S2097152_n_01_01_1_wf
def comparator_i32_i32_d0 : BitVec 32 × BitVec 32 → BitVec 32 × BitVec 32 → BitVec 1 :=
  fun l r =>
    let v2 := IntOp.cmpi .slt l.1 r.1
    v2
def gather_S2097152x16_S2097152x1_S2097152x16_1_0_n_n_0_1_116 : GatherDims S2097152x16 S2097152x1 S2097152x16 where
  offsetDims := [1]
  collapsedSliceDims := [0]
  operandBatchingDims := []
  startIndicesBatchingDims := []
  startIndexMap := [0]
  indexVectorDim := 1
  sliceSizes := ![1, 16]
  wf := gather_S2097152x16_S2097152x1_S2097152x16_1_0_n_n_0_1_116_wf
def gather_S2097152_S2097152x1_S2097152_n_0_n_n_0_1_1 : GatherDims S2097152 S2097152x1 S2097152 where
  offsetDims := []
  collapsedSliceDims := [0]
  operandBatchingDims := []
  startIndicesBatchingDims := []
  startIndexMap := [0]
  indexVectorDim := 1
  sliceSizes := ![1]
  wf := gather_S2097152_S2097152x1_S2097152_n_0_n_n_0_1_1_wf

class Facts : Prop extends Facts₀ where

variable [Facts]
-- ==== Proof.KernelPieces.lean ====
/-
  What one grid point's body leaves behind, in each of its three control cases.

  At every point the body writes the transformed block of logits whole into the output block. The 1x1 accumulator is
  carried in a scratch cell: the first point stores zero there and then the block's summed loss over it; every later
  point reads what the point before left and stores that plus its own block's summed loss; the last point also copies
  the cell, after its own update, into the 1x1 loss output.
-/
import proofs.«424771_j14370960572484_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The block's summed loss added to an accumulator value `acc`: what a point stores into the carried cell. -/
abbrev step (x0 : Vec F S2048x16 .f32) (x1 : Vec F S2048x1 .i32) (acc : Vec F S1x1 .f32) : Vec F S1x1 .f32 :=
  k0_pay1 (k0_pay5 x0 x1) (k0_pay6 x0 x1) acc

/-- Case A: the output block is the transformed block of logits, one covering store. -/
theorem out_A_2 (c : Dev nD) (i : grid0.Coords) (arg1 : Memref sig .tc .vmem S2048x16 .f32) (harg1 : arg1.IsWhole) (arg2 : Memref sig .tc .vmem S2048x1 .i32) (harg2 : arg2.IsWhole) (arg3 : Memref sig .tc .vmem S2048x16 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S2048x16 .f32) (x1 : Vec F S2048x1 .i32) :
    out0_A_2 c i arg1 harg1 arg2 harg2 arg3 harg3 arg4 harg4 arg5 harg5 hc0 hc1 x0 x1 = k0_pay4 x0 x1 := by
  unfold out0_A_2
  rw [View.read_writes_eq_canon _ _ _ (cover0_A_2 c i arg1 harg1 arg2 harg2 arg3 harg3 arg4 harg4 arg5 harg5 hc0 hc1 x0 x1)]
  unfold kernelRun0_A
  dsimp only
  sl_unfold_words
  rw [View.canon_unit_zero hz]
  simp only [View.readAt_eq_ld, harg1.read_unread, harg2.read_unread, harg5.read_unread, View.ld_unit_zero (S := S2048x16) hz, View.ld_unit_zero (S := S2048x1) hz, View.ld_unit_zero (S := S1x1) hz]

/-- Case A: the carried cell ends at the block's summed loss over the zero the point itself stored first. -/
theorem sout_A_0 (c : Dev nD) (i : grid0.Coords) (arg1 : Memref sig .tc .vmem S2048x16 .f32) (harg1 : arg1.IsWhole) (arg2 : Memref sig .tc .vmem S2048x1 .i32) (harg2 : arg2.IsWhole) (arg3 : Memref sig .tc .vmem S2048x16 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S2048x16 .f32) (x1 : Vec F S2048x1 .i32) :
    sout0_A_0 c i arg1 harg1 arg2 harg2 arg3 harg3 arg4 harg4 arg5 harg5 hc0 hc1 x0 x1 = step x0 x1 k0_pay2 := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg5.read_unread, View.ld_unit_zero (S := S2048x16) hz, View.ld_unit_zero (S := S2048x1) hz, View.ld_unit_zero (S := S1x1) hz]

/-- Case B: the output block is the transformed block of logits, one covering store. -/
theorem out_B_2 (c : Dev nD) (i : grid0.Coords) (arg1 : Memref sig .tc .vmem S2048x16 .f32) (harg1 : arg1.IsWhole) (arg2 : Memref sig .tc .vmem S2048x1 .i32) (harg2 : arg2.IsWhole) (arg3 : Memref sig .tc .vmem S2048x16 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S2048x16 .f32) (x1 : Vec F S2048x1 .i32) (xs0 : Vec F S1x1 .f32) :
    out0_B_2 c i arg1 harg1 arg2 harg2 arg3 harg3 arg4 harg4 arg5 harg5 hc0 hc1 x0 x1 xs0 = k0_pay4 x0 x1 := by
  unfold out0_B_2
  rw [View.read_writes_eq_canon _ _ _ (cover0_B_2 c i arg1 harg1 arg2 harg2 arg3 harg3 arg4 harg4 arg5 harg5 hc0 hc1 x0 x1 xs0)]
  unfold kernelRun0_B
  dsimp only
  sl_unfold_words
  rw [View.canon_unit_zero hz]
  simp only [View.readAt_eq_ld, harg1.read_unread, harg2.read_unread, harg5.read_unread, View.ld_unit_zero (S := S2048x16) hz, View.ld_unit_zero (S := S2048x1) hz, View.ld_unit_zero (S := S1x1) hz]

/-- Case B: the carried cell ends at the block's summed loss over what the point before left. -/
theorem sout_B_0 (c : Dev nD) (i : grid0.Coords) (arg1 : Memref sig .tc .vmem S2048x16 .f32) (harg1 : arg1.IsWhole) (arg2 : Memref sig .tc .vmem S2048x1 .i32) (harg2 : arg2.IsWhole) (arg3 : Memref sig .tc .vmem S2048x16 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S2048x16 .f32) (x1 : Vec F S2048x1 .i32) (xs0 : Vec F S1x1 .f32) :
    sout0_B_0 c i arg1 harg1 arg2 harg2 arg3 harg3 arg4 harg4 arg5 harg5 hc0 hc1 x0 x1 xs0 = step x0 x1 xs0 := by
  unfold sout0_B_0
  rw [View.read_writes_eq_canon _ _ _ (scover0_B_0 c i arg1 harg1 arg2 harg2 arg3 harg3 arg4 harg4 arg5 harg5 hc0 hc1 x0 x1 xs0)]
  unfold kernelRun0_B
  dsimp only
  sl_unfold_words
  rw [View.canon_unit_zero hz]
  simp only [View.readAt_eq_ld, harg1.read_unread, harg2.read_unread, harg5.read_unread, View.ld_unit_zero (S := S2048x16) hz, View.ld_unit_zero (S := S2048x1) hz, View.ld_unit_zero (S := S1x1) hz]

/-- Case C: the output block is the transformed block of logits, one covering store. -/
theorem out_C_2 (c : Dev nD) (i : grid0.Coords) (arg1 : Memref sig .tc .vmem S2048x16 .f32) (harg1 : arg1.IsWhole) (arg2 : Memref sig .tc .vmem S2048x1 .i32) (harg2 : arg2.IsWhole) (arg3 : Memref sig .tc .vmem S2048x16 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S2048x16 .f32) (x1 : Vec F S2048x1 .i32) (xs0 : Vec F S1x1 .f32) :
    out0_C_2 c i arg1 harg1 arg2 harg2 arg3 harg3 arg4 harg4 arg5 harg5 hc0 hc1 x0 x1 xs0 = k0_pay4 x0 x1 := by
  unfold out0_C_2
  rw [View.read_writes_eq_canon _ _ _ (cover0_C_2 c i arg1 harg1 arg2 harg2 arg3 harg3 arg4 harg4 arg5 harg5 hc0 hc1 x0 x1 xs0)]
  unfold kernelRun0_C
  dsimp only
  sl_unfold_words
  rw [View.canon_unit_zero hz]
  simp only [View.readAt_eq_ld, harg1.read_unread, harg2.read_unread, harg5.read_unread, View.ld_unit_zero (S := S2048x16) hz, View.ld_unit_zero (S := S2048x1) hz, View.ld_unit_zero (S := S1x1) hz]

/-- Case C: the carried cell ends at the block's summed loss over what the point before left. -/
theorem sout_C_0 (c : Dev nD) (i : grid0.Coords) (arg1 : Memref sig .tc .vmem S2048x16 .f32) (harg1 : arg1.IsWhole) (arg2 : Memref sig .tc .vmem S2048x1 .i32) (harg2 : arg2.IsWhole) (arg3 : Memref sig .tc .vmem S2048x16 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S2048x16 .f32) (x1 : Vec F S2048x1 .i32) (xs0 : Vec F S1x1 .f32) :
    sout0_C_0 c i arg1 harg1 arg2 harg2 arg3 harg3 arg4 harg4 arg5 harg5 hc0 hc1 x0 x1 xs0 = step x0 x1 xs0 := by
  unfold sout0_C_0
  rw [View.read_writes_eq_canon _ _ _ (scover0_C_0 c i arg1 harg1 arg2 harg2 arg3 harg3 arg4 harg4 arg5 harg5 hc0 hc1 x0 x1 xs0)]
  unfold kernelRun0_C
  dsimp only
  sl_unfold_words
  rw [View.canon_unit_zero hz]
  simp only [View.readAt_eq_ld, harg1.read_unread, harg2.read_unread, harg5.read_unread, View.ld_unit_zero (S := S2048x16) hz, View.ld_unit_zero (S := S2048x1) hz, View.ld_unit_zero (S := S1x1) hz]

/-- Case C: the loss output is the carried cell read back after the point's own update. -/
theorem out_C_3 (c : Dev nD) (i : grid0.Coords) (arg1 : Memref sig .tc .vmem S2048x16 .f32) (harg1 : arg1.IsWhole) (arg2 : Memref sig .tc .vmem S2048x1 .i32) (harg2 : arg2.IsWhole) (arg3 : Memref sig .tc .vmem S2048x16 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S2048x16 .f32) (x1 : Vec F S2048x1 .i32) (xs0 : Vec F S1x1 .f32) :
    out0_C_3 c i arg1 harg1 arg2 harg2 arg3 harg3 arg4 harg4 arg5 harg5 hc0 hc1 x0 x1 xs0 = step x0 x1 xs0 := by
  unfold out0_C_3
  rw [View.read_writes_eq_canon _ _ _ (cover0_C_3 c i arg1 harg1 arg2 harg2 arg3 harg3 arg4 harg4 arg5 harg5 hc0 hc1 x0 x1 xs0)]
  unfold kernelRun0_C
  dsimp only
  sl_unfold_words
  rw [View.canon_unit_zero hz, View.readCov_unit_zero (S := S1x1) _ hz]
  simp only [View.readAt_eq_ld, harg1.read_unread, harg2.read_unread, harg5.read_unread, View.ld_unit_zero (S := S2048x16) hz, View.ld_unit_zero (S := S2048x1) hz, View.ld_unit_zero (S := S1x1) hz]

end Cert.KernelIdeal.Pieces

end
-- ==== Proof.KernelAcc.lean ====
/-
  The accumulator across the grid.

  The 1x1 cell carried from point to point holds, after point `n`, the block losses of points 0 to `n` added one
  after the other onto the zero the first point stores: a recursion on the point, read off the three control cases by
  induction (the first point is the case that resets, the last is the case that also writes the loss output, every
  other point only adds). The output block of every point is the transformed block of that point's logits.
-/
import proofs.«424771_j14370960572484_1_alg».proof.Proof.KernelPieces

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ)

/-- Point `t`'s block of logits and its column of label words, at their literal types. -/
abbrev xblk (c : Dev nD) (t : Fin cfg0.N) : Vec F S2048x16 .f32 := iblk m c 0 t
abbrev lblk (c : Dev nD) (t : Fin cfg0.N) : Vec F S2048x1 .i32 := iblk m c 1 t

/-- The carried cell after point `n`: the first point's block loss over the stored zero, then each point's over the
    cell the point before left. -/
def acc (c : Dev nD) : (n : ℕ) → n < cfg0.N → Vec F S1x1 .f32
  | 0, h => step (xblk m c ⟨0, h⟩) (lblk m c ⟨0, h⟩) k0_pay2
  | n + 1, h => step (xblk m c ⟨n + 1, h⟩) (lblk m c ⟨n + 1, h⟩) (acc c n (Nat.lt_of_succ_lt h))

/-- Every point leaves the transformed block of its logits in the output block. -/
theorem out2_eq (c : Dev nD) (t : Fin cfg0.N) :
    (outsAt0 m c t.val t.isLt).1 = k0_pay4 (xblk m c t) (lblk m c t) := by
  have hN : cfg0.N = 1024 := N_0
  have ht := t.isLt
  by_cases h0 : t.val % 1024 = 0
  · have h1 : ¬t.val % 1024 = 1023 := by omega
    rw [outsAt0_A m c t h0 h1]; dsimp only
    exact out_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 1024 = 1023
    · rw [outsAt0_C m c t h0 h1]; dsimp only
      exact out_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]; dsimp only
      exact out_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- The carried cell after every point is the accumulator. -/
theorem cell_eq (c : Dev nD) : ∀ (n : ℕ) (h : n < cfg0.N), (outsAt0 m c n h).2.2 = acc m c n h
  | 0, h => by
    have h0 : (⟨0, h⟩ : Fin cfg0.N).val % 1024 = 0 := rfl
    have h1 : ¬(⟨0, h⟩ : Fin cfg0.N).val % 1024 = 1023 := by dsimp only; omega
    rw [outsAt0_A m c ⟨0, h⟩ h0 h1]; dsimp only
    exact sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩)
  | n + 1, h => by
    have hN : cfg0.N = 1024 := N_0
    have h0 : ¬(⟨n + 1, h⟩ : Fin cfg0.N).val % 1024 = 0 := by dsimp only; omega
    have ih := cell_eq c n (Nat.lt_of_succ_lt h)
    by_cases h1 : (⟨n + 1, h⟩ : Fin cfg0.N).val % 1024 = 1023
    · rw [outsAt0_C m c ⟨n + 1, h⟩ h0 h1]; dsimp only
      refine (sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2).trans ?_
      show step _ _ (outsAt0 m c n _).2.2 = step _ _ (acc m c n _)
      rw [ih]
    · rw [outsAt0_B m c ⟨n + 1, h⟩ h0 h1]; dsimp only
      refine (sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2).trans ?_
      show step _ _ (outsAt0 m c n _).2.2 = step _ _ (acc m c n _)
      rw [ih]

/-- At the last point the loss output holds the accumulator after that point. -/
theorem out3_last (c : Dev nD) (t : Fin cfg0.N) (h1 : t.val % 1024 = 1023) :
    (outsAt0 m c t.val t.isLt).2.1 = acc m c t.val t.isLt := by
  have hN : cfg0.N = 1024 := N_0
  have h0 : ¬t.val % 1024 = 0 := by omega
  have hc := cell_eq m c t.val t.isLt
  rw [outsAt0_C m c t h0 h1] at hc ⊢; dsimp only at hc ⊢
  refine (out_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans ?_
  exact (sout_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm.trans hc

end Cert.KernelIdeal.Acc

end
-- ==== Proof.Spec.lean ====
/-
  The mathematics of the kernel, free of either program.

  A row is sixteen logits and a label. The label's logit goes through a piecewise affine map (divide by a scale and
  subtract one where it is positive, multiply by the scale and subtract one elsewhere) and is put back in its place;
  the row's negative log likelihood is taken against a smoothed one-hot target: minus (a weight times the log-softmax
  at the label plus a smaller weight times the sum of the log-softmax over the row). The loss is the sum of the rows'
  values divided by the number of rows.

  One side reads the label's entries by position (an index), the other by a sum against the one-hot mask of the
  label (every entry selected or zero). On the extended reals a sum of fifteen zeros and one value is that value,
  whatever the value, so the two readings agree wherever the label is one of the sixteen positions.
-/
import Idealize.ShloMosaic.PureOps.Ideal.Laws
import Idealize.ShloMosaic.Lib.ValueIdx
import Idealize.ShloMosaic.Lib.StableHlo.Predicate

noncomputable section

namespace Cert.Spec

open Idealize.ShloMosaic Idealize.ShloMosaic.ValueIdx

/-- A row of sixteen logits. -/
abbrev Row : Type := Fin 16 → EReal

/-- The literals both programs carry, kept as the words they are printed with. -/
def zero : EReal := Ideal.ofBits .f32 0x00000000#32
def one : EReal := Ideal.ofBits .f32 0x3F800000#32
def scale : EReal := Ideal.ofBits .f32 0x4040002A#32
def wLabel : EReal := Ideal.ofBits .f32 0x3F666666#32
def wAll : EReal := Ideal.ofBits .f32 0x3BCCCCCD#32
def negInf : EReal := Ideal.ofBits .f32 0xFF800000#32
def count : EReal := Ideal.ofBits .f32 0x4A000000#32

theorem zero_eq : zero = 0 := Ideal.ofBits_zero_f32

/-- The piecewise affine map applied to the label's logit. -/
def margin (v : EReal) : EReal :=
  Scalar.select (Ideal.cmp .ogt v zero) (Ideal.div v scale - one) (v * scale - one)

/-- The row with the label's logit replaced by its image. -/
def insert (x : Row) (l : Fin 16) : Row := fun j => if j = l then margin (x l) else x j

/-- The row's largest entry, folded from minus infinity. -/
def rowMax (d : Row) : EReal := (Finset.univ : Finset (Fin 16)).fold max negInf d

/-- The log-softmax of a row, shifted by its largest entry. -/
def logSoftmax (d : Row) : Row :=
  fun j => (d j - rowMax d) - Ideal.log (∑ k : Fin 16, Ideal.exp (d k - rowMax d))

/-- The smoothed negative log likelihood of a row at a label. -/
def nll (d : Row) (l : Fin 16) : EReal := -(wLabel * logSoftmax d l + wAll * ∑ j : Fin 16, logSoftmax d j)

/-! ## The same by the label's one-hot mask -/

/-- Whether position `j` is the label word `w`. -/
def hit (w : BitVec 32) (j : Fin 16) : BitVec 1 := IntOp.cmpi .eq (BitVec.ofNat 32 j.val) w

/-- The entry of `a` the label word names, as a sum against its mask. -/
def pick (w : BitVec 32) (a : Row) : EReal := ∑ j : Fin 16, Scalar.select (hit w j) (a j) zero

/-- The row with the label's logit replaced, by the mask. -/
def insertK (x : Row) (w : BitVec 32) : Row := fun j => Scalar.select (hit w j) (margin (pick w x)) (x j)

/-- The smoothed negative log likelihood, by the mask, as zero minus the weighted sum. -/
def nllK (d : Row) (w : BitVec 32) : EReal :=
  zero - (wLabel * pick w (logSoftmax d) + wAll * ∑ j : Fin 16, logSoftmax d j)

/-- A position is hit exactly when it is the label. -/
theorem hit_eq_one_iff (w : BitVec 32) (l j : Fin 16) (hw : w.toNat = l.val) : hit w j = 1#1 ↔ j = l := by
  unfold hit
  rw [StableHlo.Predicate.cmpi_eq_iff]
  constructor
  · intro h
    have h2 := congrArg BitVec.toNat h
    rw [BitVec.toNat_ofNat, hw] at h2
    have hj : j.val % 2 ^ 32 = j.val := Nat.mod_eq_of_lt (by have := j.isLt; omega)
    exact Fin.ext (by omega)
  · rintro rfl
    apply BitVec.eq_of_toNat_eq
    rw [BitVec.toNat_ofNat, hw]
    exact Nat.mod_eq_of_lt (by have := j.isLt; omega)

/-- A sum against the mask of a label is the entry at the label. -/
theorem pick_eq (w : BitVec 32) (l : Fin 16) (hw : w.toNat = l.val) (a : Row) : pick w a = a l := by
  unfold pick
  have h : ∀ j : Fin 16, Scalar.select (hit w j) (a j) zero = if j = l then a j else 0 := by
    intro j
    by_cases hj : j = l
    · rw [if_pos hj, (hit_eq_one_iff w l j hw).2 hj]; exact select_one _ _
    · rw [if_neg hj, eq_zero_of_ne_one (fun h => hj ((hit_eq_one_iff w l j hw).1 h)), select_zero, zero_eq]
  rw [Finset.sum_congr rfl fun j _ => h j, Finset.sum_ite_eq' Finset.univ l a, if_pos (Finset.mem_univ l)]

theorem insertK_eq (x : Row) (w : BitVec 32) (l : Fin 16) (hw : w.toNat = l.val) : insertK x w = insert x l := by
  funext j
  unfold insertK insert
  rw [pick_eq w l hw]
  by_cases hj : j = l
  · rw [if_pos hj, (hit_eq_one_iff w l j hw).2 hj]; exact select_one _ _
  · rw [if_neg hj, eq_zero_of_ne_one (fun h => hj ((hit_eq_one_iff w l j hw).1 h))]; exact select_zero _ _

theorem nllK_eq (d : Row) (w : BitVec 32) (l : Fin 16) (hw : w.toNat = l.val) : nllK d w = nll d l := by
  unfold nllK nll
  rw [pick_eq w l hw, zero_eq, sub_eq_add_neg, zero_add]

/-- Folding `max` from a start value gives at least the start value, so taking `max` with it again changes nothing. -/
theorem max_negInf_rowMax (d : Row) : max negInf (rowMax d) = rowMax d :=
  max_eq_right ((Finset.le_fold_max negInf).2 (Or.inl le_rfl))

/-! ## Sums over all the rows -/

/-- A sum over the rows read through a bijection of the rows is the sum over the rows. -/
theorem sum_perm {n : Nat} (σ : Fin n → Fin n) (hσ : Function.Bijective σ) (f : Fin n → EReal) :
    ∑ r : Fin n, f (σ r) = ∑ i : Fin n, f i :=
  Function.Bijective.sum_comp hσ f

/-- The rows summed block by block, 1024 blocks of 2048 rows, are the rows summed. -/
theorem sum_blocks (f : Fin 2097152 → EReal) :
    ∑ t : Fin 1024, ∑ r : Fin 2048, f ⟨t.val * 2048 + r.val, by have := t.isLt; have := r.isLt; omega⟩
      = ∑ i : Fin 2097152, f i := by
  rw [← Finset.sum_product', Finset.univ_product_univ]
  refine Fintype.sum_equiv (finProdFinEquiv (m := 1024) (n := 2048)) _ _ fun p => ?_
  refine congrArg f (Fin.ext ?_)
  show p.1.val * 2048 + p.2.val = p.2.val + 2048 * p.1.val
  omega

end Cert.Spec

end
-- ==== Proof.KernelRows.lean ====
/-
  The block's values read at an index.

  A block is 2048 rows of sixteen logits with a column of 2048 label words. The block computes, lane by lane and row
  by row: the one-hot mask of each row's label (a lane counter compared with the label carried along the lanes); the
  label's logit as the lane sum of the row under the mask; its piecewise affine image written back under the mask; the
  row's log-softmax shifted by the row's largest entry; and, added to a carried one-entry accumulator, the sum over the
  2048 rows of zero less a weight times the log-softmax at the label (again a lane sum under the mask) plus a smaller
  weight times the row's sum of the log-softmax.

  Every step but four is entry by entry and reads through by unfolding. The four that move entries are read at an
  index once each: the lane counter reads its lane; a vector viewed as a column reads the vector's entry of that row; a
  column carried along the lanes reads the column's entry of that row; a reduction along one axis is the sum, or the
  fold of the maximum, over that axis's coordinates with the other coordinate held. With these the block's values at
  `(r, j)` are the row-wise functions of the specification applied to row `r` of the logits and row `r`'s label word.
  The float literals are the same words on both sides and are never evaluated.
-/
import proofs.«424771_j14370960572484_1_alg».proof.Proof.Gen.KernelIdeal.Skeleton
import proofs.«424771_j14370960572484_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelRows

open Cert.KernelIdeal Cert.KernelIdeal.Gen Idealize.ShloMosaic Idealize.ShloMosaic.ValueIdx

/-! ## A vector as a column, a column along the lanes -/

section Layout
variable {α : Type}

/-- A vector of `a` entries viewed as the column `[a, 1]` reads, at row `i`, the vector's entry `i`: both sit at
row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h (ix2 i u) (ix1 i) (by
    rw [Shape.rowMajor_val_one, Shape.rowMajor_val_two]
    show i.val = i.val * 1 + u.val
    omega)

/-- A column `[a, 1]` repeated along `b` lanes reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The block's reductions read at a row -/

/-- The sum of a block along its lanes, at row `r`, is the sum of that row's sixteen entries. -/
theorem laneSum_apply (src : FVec Ideal S2048x16 .f32) (h : S2048x16.Reduces [1] S2048) (hφ : FKind.Formats .f32)
    (hacc : (0x00000000#32 : BitVec 32) = FKind.add.neutral .f32 hφ) (r : Fin 2048) :
    multiReduction .add [1] S2048 src 0x00000000#32 h hφ hacc (ix1 r) = ∑ k : Fin 16, src (ix2 r k) := by
  refine (Ideal.multiReduction_add_single src _ h hφ hacc (ix1 r)).trans ?_
  refine Finset.sum_congr rfl fun k _ => congrArg src ?_
  funext ax
  match ax with
  | ⟨0, _⟩ => exact Fin.ext rfl
  | ⟨1, _⟩ => exact Fin.ext rfl

/-- The maximum of a block along its lanes, at row `r`, is `max` folded over that row's sixteen entries from the
value of the starting word. -/
theorem laneMax_apply (src : FVec Ideal S2048x16 .f32) (h : S2048x16.Reduces [1] S2048) (hφ : FKind.Formats .f32)
    (hacc : (0xFF800000#32 : BitVec 32) = FKind.maximumf.neutral .f32 hφ) (r : Fin 2048) :
    multiReduction .maximumf [1] S2048 src 0xFF800000#32 h hφ hacc (ix1 r)
      = (Finset.univ : Finset (Fin 16)).fold max (Ideal.ofBits .f32 0xFF800000#32) (fun k => src (ix2 r k)) := by
  refine (Ideal.multiReduction_maximumf_single src _ h hφ hacc (ix1 r)).trans ?_
  refine congrArg (Finset.fold max (Ideal.ofBits .f32 0xFF800000#32) · (Finset.univ : Finset (Fin 16))) ?_
  funext k
  refine congrArg src ?_
  funext ax
  match ax with
  | ⟨0, _⟩ => exact Fin.ext rfl
  | ⟨1, _⟩ => exact Fin.ext rfl

/-- The sum of a column of 2048 entries along its rows is the sum of the entries. -/
theorem rowsSum_apply (src : FVec Ideal S2048x1 .f32) (h : S2048x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 2048, src (ix2 r (0 : Fin 1)) := by
  refine (Ideal.multiReduction_add_single src _ h hφ hacc (ix1 (0 : Fin 1))).trans ?_
  refine Finset.sum_congr rfl fun r _ => congrArg src ?_
  funext ax
  match ax with
  | ⟨0, _⟩ => exact Fin.ext rfl
  | ⟨1, _⟩ => exact Fin.ext rfl

/-! ## The one-hot mask of the labels -/

/-- The mask at `(r, j)` says whether lane `j` is row `r`'s label word: the lane counter reads `j`, the labels'
column repeated along the lanes reads row `r`'s word. -/
theorem pay3_apply (x1 : Vec Ideal S2048x1 .i32) (r : Fin 2048) (j : Fin 16) :
    k0_pay3 (F := Ideal) x1 (ix2 r j) = Cert.Spec.hit (x1 (ix2 r (0 : Fin 1))) j := by
  unfold k0_pay3
  show IntOp.cmpi .eq (iota .tc S2048x16 32 [1] iota_S2048x16_d1_w32 (ix2 r j))
      (broadcastTo S2048x16 (shapeCast S2048x1 x1 shapeCasts_S2048x1_S2048x1) broadcasts_S2048x1_S2048x16 (ix2 r j)) = _
  rw [shapeCast_self]
  exact congrArg₂ (IntOp.cmpi .eq) (iota_single_apply .tc S2048x16 32 1 iota_S2048x16_d1_w32 (ix2 r j))
    (broadcastTo_a1_ab_apply x1 broadcasts_S2048x1_S2048x16 r j)

/-! ## A sum under the mask -/

/-- The lane sum, at row `r`, of a block kept where the mask holds and zero elsewhere is the sum of the row's entries
against the mask of that row's label. -/
theorem maskedSum_apply (x1 : Vec Ideal S2048x1 .i32) (a : FVec Ideal S2048x16 .f32) (h : S2048x16.Reduces [1] S2048)
    (hφ : FKind.Formats .f32) (hacc : (0x00000000#32 : BitVec 32) = FKind.add.neutral .f32 hφ) (r : Fin 2048) :
    multiReduction .add [1] S2048
        (select (k0_pay3 (F := Ideal) x1) a (broadcast S2048x16 (Scalar.ofBits (F := Ideal) .f32 0x00000000#32)))
        0x00000000#32 h hφ hacc (ix1 r)
      = Cert.Spec.pick (x1 (ix2 r (0 : Fin 1))) (fun k : Fin 16 => a (ix2 r k)) := by
  refine (laneSum_apply _ h hφ hacc r).trans ?_
  unfold Cert.Spec.pick
  refine Finset.sum_congr rfl fun k _ => ?_
  show Scalar.select (k0_pay3 (F := Ideal) x1 (ix2 r k)) (a (ix2 r k)) (Ideal.ofBits .f32 0x00000000#32) = _
  rw [pay3_apply]
  rfl

/-! ## The label's logit put back in its place -/

/-- The label's logit of every row as the block computes it: the lane sum of the logits under the mask, as a column. -/
def labelLogit (x0 : Vec Ideal S2048x16 .f32) (x1 : Vec Ideal S2048x1 .i32) : FVec Ideal S2048x1 .f32 :=
  shapeCast S2048x1
    (multiReduction .add [1] S2048
      (select (k0_pay3 (F := Ideal) x1) x0 (broadcast S2048x16 (Scalar.ofBits (F := Ideal) .f32 0x00000000#32)))
      0x00000000#32 reduces_S2048x16_S2048 (.inl rfl) rfl)
    shapeCasts_S2048_S2048x1

/-- At row `r` it is the row's entry the label names, as the sum against the label's mask. -/
theorem labelLogit_apply (x0 : Vec Ideal S2048x16 .f32) (x1 : Vec Ideal S2048x1 .i32) (r : Fin 2048) (u : Fin 1) :
    labelLogit x0 x1 (ix2 r u) = Cert.Spec.pick (x1 (ix2 r (0 : Fin 1))) (fun k : Fin 16 => x0 (ix2 r k)) :=
  (shapeCast_a_a1_apply _ shapeCasts_S2048_S2048x1 r u).trans
    (maskedSum_apply x1 x0 reduces_S2048x16_S2048 (.inl rfl) rfl r)

/-- The block after the write-back, at `(r, j)`: where lane `j` is the label, the piecewise affine image of the
label's logit (one value per row, carried along the lanes); elsewhere the logit that was there. -/
theorem pay4_apply (x0 : Vec Ideal S2048x16 .f32) (x1 : Vec Ideal S2048x1 .i32) (r : Fin 2048) (j : Fin 16) :
    k0_pay4 (F := Ideal) x0 x1 (ix2 r j)
      = Cert.Spec.insertK (fun k : Fin 16 => x0 (ix2 r k)) (x1 (ix2 r (0 : Fin 1))) j := by
  unfold k0_pay4 Cert.Spec.insertK
  refine (select_apply _ _ _ (ix2 r j)).trans ?_
  rw [pay3_apply, shapeCast_self]
  refine congrArg (fun v => Scalar.select (Cert.Spec.hit (x1 (ix2 r (0 : Fin 1))) j) v (x0 (ix2 r j))) ?_
  refine (broadcastTo_a1_ab_apply _ broadcasts_S2048x1_S2048x16 r j).trans ?_
  show Cert.Spec.margin (labelLogit x0 x1 (ix2 r (0 : Fin 1))) = _
  rw [labelLogit_apply]

/-! ## The row's log-softmax -/

/-- The block after the write-back with each row's largest entry taken off. -/
def shifted (x0 : Vec Ideal S2048x16 .f32) (x1 : Vec Ideal S2048x1 .i32) : FVec Ideal S2048x16 .f32 :=
  subf (k0_pay4 (F := Ideal) x0 x1)
    (broadcastTo S2048x16
      (shapeCast S2048x1
        (multiReduction .maximumf [1] S2048 (k0_pay4 (F := Ideal) x0 x1) 0xFF800000#32 reduces_S2048x16_S2048 (.inl rfl) rfl)
        shapeCasts_S2048_S2048x1)
      broadcasts_S2048x1_S2048x16)

/-- At `(r, j)` it is the row's entry less the row's largest entry: the lane maximum at row `r` is the fold of `max`
over that row, carried along the lanes. -/
theorem shifted_apply (x0 : Vec Ideal S2048x16 .f32) (x1 : Vec Ideal S2048x1 .i32) (r : Fin 2048) (j : Fin 16) :
    shifted x0 x1 (ix2 r j)
      = Cert.Spec.insertK (fun k : Fin 16 => x0 (ix2 r k)) (x1 (ix2 r (0 : Fin 1))) j
        - Cert.Spec.rowMax (Cert.Spec.insertK (fun k : Fin 16 => x0 (ix2 r k)) (x1 (ix2 r (0 : Fin 1)))) := by
  unfold shifted
  refine (subf_apply _ _ (ix2 r j)).trans (congrArg₂ (· - ·) (pay4_apply x0 x1 r j) ?_)
  refine (broadcastTo_a1_ab_apply _ broadcasts_S2048x1_S2048x16 r j).trans ?_
  refine (shapeCast_a_a1_apply _ shapeCasts_S2048_S2048x1 r (0 : Fin 1)).trans ?_
  refine (laneMax_apply _ reduces_S2048x16_S2048 (.inl rfl) rfl r).trans ?_
  unfold Cert.Spec.rowMax
  exact congrArg (Finset.fold max Cert.Spec.negInf · (Finset.univ : Finset (Fin 16)))
    (funext fun k => pay4_apply x0 x1 r k)

/-- The log-softmax of every row, at `(r, j)`: the shifted entry less the logarithm of the row's sum of exponentials of
shifted entries (one value per row, carried along the lanes). -/
theorem pay5_apply (x0 : Vec Ideal S2048x16 .f32) (x1 : Vec Ideal S2048x1 .i32) (r : Fin 2048) (j : Fin 16) :
    k0_pay5 (F := Ideal) x0 x1 (ix2 r j)
      = Cert.Spec.logSoftmax (Cert.Spec.insertK (fun k : Fin 16 => x0 (ix2 r k)) (x1 (ix2 r (0 : Fin 1)))) j := by
  unfold k0_pay5 Cert.Spec.logSoftmax
  refine (subf_apply _ _ (ix2 r j)).trans (congrArg₂ (· - ·) (shifted_apply x0 x1 r j) ?_)
  refine (broadcastTo_a1_ab_apply _ broadcasts_S2048x1_S2048x16 r j).trans ?_
  refine congrArg Ideal.log ?_
  refine (shapeCast_a_a1_apply _ shapeCasts_S2048_S2048x1 r (0 : Fin 1)).trans ?_
  refine (laneSum_apply _ reduces_S2048x16_S2048 (.inl rfl) rfl r).trans ?_
  refine Finset.sum_congr rfl fun k _ => ?_
  exact congrArg Ideal.exp (shifted_apply x0 x1 r k)

/-- The log-softmax at the label, one value per row: the lane sum of the log-softmax under the mask. -/
theorem pay6_apply (x0 : Vec Ideal S2048x16 .f32) (x1 : Vec Ideal S2048x1 .i32) (r : Fin 2048) (u : Fin 1) :
    k0_pay6 (F := Ideal) x0 x1 (ix2 r u)
      = Cert.Spec.pick (x1 (ix2 r (0 : Fin 1)))
          (Cert.Spec.logSoftmax (Cert.Spec.insertK (fun k : Fin 16 => x0 (ix2 r k)) (x1 (ix2 r (0 : Fin 1))))) := by
  unfold k0_pay6
  refine (shapeCast_a_a1_apply _ shapeCasts_S2048_S2048x1 r u).trans ?_
  refine (maskedSum_apply x1 (k0_pay5 (F := Ideal) x0 x1) reduces_S2048x16_S2048 (.inl rfl) rfl r).trans ?_
  exact congrArg (Cert.Spec.pick (x1 (ix2 r (0 : Fin 1)))) (funext fun k => pay5_apply x0 x1 r k)

/-! ## The block's contribution to the accumulator -/

/-- The row's sum of its log-softmax, one value per row. -/
def rowTotal (x0 : Vec Ideal S2048x16 .f32) (x1 : Vec Ideal S2048x1 .i32) : FVec Ideal S2048x1 .f32 :=
  shapeCast S2048x1
    (multiReduction .add [1] S2048 (k0_pay5 (F := Ideal) x0 x1) 0x00000000#32 reduces_S2048x16_S2048 (.inl rfl) rfl)
    shapeCasts_S2048_S2048x1

/-- At row `r` it is the sum of that row's sixteen log-softmax entries. -/
theorem rowTotal_apply (x0 : Vec Ideal S2048x16 .f32) (x1 : Vec Ideal S2048x1 .i32) (r : Fin 2048) (u : Fin 1) :
    rowTotal x0 x1 (ix2 r u)
      = ∑ j : Fin 16,
          Cert.Spec.logSoftmax (Cert.Spec.insertK (fun k : Fin 16 => x0 (ix2 r k)) (x1 (ix2 r (0 : Fin 1)))) j :=
  (shapeCast_a_a1_apply _ shapeCasts_S2048_S2048x1 r u).trans
    ((laneSum_apply _ reduces_S2048x16_S2048 (.inl rfl) rfl r).trans
      (Finset.sum_congr rfl fun j _ => pay5_apply x0 x1 r j))

/-- The accumulator after the block: what it carried plus the sum, over the block's 2048 rows, of the row's smoothed
negative log likelihood (zero less the weighted log-softmax at the label and the weighted sum of the log-softmax). -/
theorem pay1_apply (x0 : Vec Ideal S2048x16 .f32) (x1 : Vec Ideal S2048x1 .i32) (acc : Vec Ideal S1x1 .f32) :
    k0_pay1 (F := Ideal) (k0_pay5 x0 x1) (k0_pay6 x0 x1) acc (ix2 (0 : Fin 1) (0 : Fin 1))
      = acc (ix2 0 0) + ∑ r : Fin 2048,
          Cert.Spec.nllK (Cert.Spec.insertK (fun k : Fin 16 => x0 (ix2 r k)) (x1 (ix2 r 0))) (x1 (ix2 r 0)) := by
  unfold k0_pay1
  rw [shapeCast_self]
  refine (addf_apply _ _ (ix2 (0 : Fin 1) (0 : Fin 1))).trans (congrArg (acc (ix2 0 0) + ·) ?_)
  refine (shapeCast_a_1a_apply _ shapeCasts_S1_S1x1 (0 : Fin 1) (0 : Fin 1)).trans ?_
  refine (rowsSum_apply _ reduces_S2048x1_S1 (.inl rfl) rfl).trans ?_
  refine Finset.sum_congr rfl fun r _ => ?_
  show Cert.Spec.zero - (Cert.Spec.wLabel * k0_pay6 (F := Ideal) x0 x1 (ix2 r (0 : Fin 1))
      + Cert.Spec.wAll * rowTotal x0 x1 (ix2 r (0 : Fin 1))) = _
  rw [pay6_apply, rowTotal_apply]
  rfl

/-- The accumulator's first value is the zero word's. -/
theorem pay2_apply : k0_pay2 (F := Ideal) (ix2 (0 : Fin 1) (0 : Fin 1)) = Cert.Spec.zero := by
  unfold k0_pay2
  rw [shapeCast_self]
  rfl

end Cert.KernelRows

end
-- ==== Proof.KernelArray.lean ====
/-
  The two result arrays of the pipelined call, as functions of its argument arrays.

  The output of transformed logits is written block by block: point `t` writes rows `2048 t` to `2048 t + 2047`, and
  row `r` of that block depends only on row `2048 t + r` of the logits and of the label column. So the array is one
  row-wise function of the arguments, and the 1024 blocks tile it. The 1x1 loss output is written once, after the
  last point, with the carried accumulator: zero, plus the first block's summed row losses, plus the second's, and so
  on in point order, which over the extended reals is zero plus the sum of all the rows' losses.
-/
import proofs.«424771_j14370960572484_1_alg».proof.Proof.KernelAcc
import proofs.«424771_j14370960572484_1_alg».proof.Proof.KernelRows
import proofs.«424771_j14370960572484_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Pieces Cert.KernelIdeal.Acc

variable (m : (ℓ : Loc nD τ sig) → Buf (Elt Ideal) ℓ)

/-- The logits and the label column as the call finds them. -/
abbrev X (c : Dev nD) : S2097152x16.Idx → EReal := V m c main_arg0
abbrev Lc (c : Dev nD) : S2097152x1.Idx → BitVec 32 := V m c main_v0

/-- Row `i` of the logits, and its label word. -/
abbrev row (c : Dev nD) (i : Fin 2097152) : Cert.Spec.Row := fun k => X m c (ix2 i k)
abbrev lab (c : Dev nD) (i : Fin 2097152) : BitVec 32 := Lc m c (ix2 i (0 : Fin 1))

/-- The array of transformed logits: every row with its label's logit replaced, by the label's mask. -/
def data (c : Dev nD) : S2097152x16.Idx → EReal := fun p => Cert.Spec.insertK (row m c (p 0)) (lab m c (p 0)) (p 1)

/-- A row's loss, by the label's mask. -/
def rowLoss (c : Dev nD) (i : Fin 2097152) : EReal :=
  Cert.Spec.nllK (Cert.Spec.insertK (row m c i) (lab m c i)) (lab m c i)

/-- The printed index maps over the grid: every row window's block index is the point, its column block index zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The global row of row `r` of point `t`'s block. -/
abbrev grow (t : Fin cfg0.N) (r : Fin 2048) : Fin 2097152 :=
  ⟨t.val * 2048 + r.val, by have := t.isLt; have hN : cfg0.N = 1024 := N_0; have := r.isLt; omega⟩

/-- Point `t`'s block of logits is rows `2048 t ...` of the logits. -/
theorem xblk_apply (c : Dev nD) (t : Fin cfg0.N) (r : Fin 2048) (k : Fin 16) :
    xblk m c t (ix2 r k) = X m c (ix2 (grow t r) k) := by
  obtain ⟨e0, e1, -, -, -, -⟩ := idx_facts t
  unfold xblk iblk
  rw [View.read_apply]
  show V m c main_arg0 (((cfg0.win 0).blk t).view.emb (ix2 r k)) = V m c main_arg0 (ix2 (grow t r) k)
  congr 1
  funext a; apply Fin.ext
  match a with
  | ⟨0, _⟩ => show win0_0.index t (0 : Fin 2) * 2048 + 1 * r.val = t.val * 2048 + r.val; rw [e0]; omega
  | ⟨1, _⟩ => show win0_0.index t (1 : Fin 2) * 16 + 1 * k.val = k.val; rw [e1]; omega

/-- ... and its label column is the same rows of the label column. -/
theorem lblk_apply (c : Dev nD) (t : Fin cfg0.N) (r : Fin 2048) :
    lblk m c t (ix2 r (0 : Fin 1)) = Lc m c (ix2 (grow t r) (0 : Fin 1)) := by
  obtain ⟨-, -, e0, e1, -, -⟩ := idx_facts t
  unfold lblk iblk
  rw [View.read_apply]
  show V m c main_v0 (((cfg0.win 1).blk t).view.emb (ix2 r (0 : Fin 1))) = V m c main_v0 (ix2 (grow t r) (0 : Fin 1))
  congr 1
  funext a; apply Fin.ext
  match a with
  | ⟨0, _⟩ => show win0_1.index t (0 : Fin 2) * 2048 + 1 * r.val = t.val * 2048 + r.val; rw [e0]; omega
  | ⟨1, _⟩ => show win0_1.index t (1 : Fin 2) * 1 + 1 * (0 : Fin 1).val = (0 : Fin 1).val; rw [e1]; rfl

/-- Where an element of point `t`'s output block sits in the output array. -/
theorem emb2 (t : Fin cfg0.N) (r : Fin 2048) (j : Fin 16) :
    ((cfg0.win 2).blk t).view.emb (ix2 r j) = ix2 (grow t r) j := by
  obtain ⟨-, -, -, -, e0, e1⟩ := idx_facts t
  funext a; apply Fin.ext
  match a with
  | ⟨0, _⟩ => show win0_2.index t (0 : Fin 2) * 2048 + 1 * r.val = t.val * 2048 + r.val; rw [e0]; omega
  | ⟨1, _⟩ => show win0_2.index t (1 : Fin 2) * 16 + 1 * j.val = j.val; rw [e1]; omega

/-- The block a point leaves, element by element, is that block of `data`. -/
theorem flushed2_at (c : Dev nD) (t : Fin cfg0.N) (y : S2048x16.Idx) :
    k0_pay4 (F := Ideal) (xblk m c t) (lblk m c t) y = data m c (((cfg0.win 2).blk t).view.emb y) := by
  obtain ⟨r, j, rfl⟩ : ∃ (r : Fin 2048) (j : Fin 16), y = ix2 r j := ⟨y 0, y 1, eq_ix2 y⟩
  rw [Cert.KernelRows.pay4_apply, emb2]
  unfold data
  show Cert.Spec.insertK (fun k : Fin 16 => xblk m c t (ix2 r k)) (lblk m c t (ix2 r (0 : Fin 1))) j
    = Cert.Spec.insertK (row m c (grow t r)) (lab m c (grow t r)) j
  rw [lblk_apply]
  exact congrArg (fun f => Cert.Spec.insertK f (lab m c (grow t r)) j) (funext fun k => xblk_apply m c t r k)

/-- What point `t` writes back is block `t` of `data`. -/
theorem flushed2_eq (c : Dev nD) (t : Fin cfg0.N) :
    (dats m 0 c).flushed 2 t = ((cfg0.win 2).blk t).view.read (Elt Ideal) (data m c) := by
  show (cfg0.win 2).cut (grid0.coords t) ((dats m 0 c).after 2 t) = _
  rw [after0_2, out2_eq]
  funext y
  exact flushed2_at m c t y

/-- An index of the output array is in point `t`'s block iff each coordinate is in the block's range. -/
theorem mem_blk2 (t : Fin cfg0.N) (i : S2097152x16.Idx) :
    i ∈ ((cfg0.win 2).blk t).view.set ↔ ∀ a : Fin 2, win0_2.index t a * S2048x16.size a ≤ (i a).val ∧ (i a).val < win0_2.index t a * S2048x16.size a + S2048x16.size a := by
  show i ∈ ((View.whole main_v1_0).slice (win0_2.rect t)).set ↔ _
  rw [View.set_slice_whole, Rect.mem_set_unit]
  exact Iff.rfl

/-- The output array after the run is `data`: the blocks tile it. -/
theorem final2 (c : Dev nD) : (dats m 0 c).arrAt 2 cfg0.N = data m c :=
  (dats m 0 c).arrAt_eq_of_cover 2 (data m c) (fun t _ => flushed2_eq m c t) fun i => by
    have hN : cfg0.N = 1024 := N_0
    have hi0 : (i 0).val < 2097152 := (i 0).isLt
    have hi1 : (i 1).val < 16 := (i 1).isLt
    let t : Fin cfg0.N := ⟨(i 0).val / 2048, by omega⟩
    obtain ⟨-, -, -, -, e0, e1⟩ := idx_facts t
    have ht : t.val = (i 0).val / 2048 := rfl
    refine ⟨t, flush0_2 t, ?_⟩
    rw [mem_blk2]
    intro a
    match a with
    | ⟨0, _⟩ => show win0_2.index t (0 : Fin 2) * 2048 ≤ (i 0).val ∧ (i 0).val < win0_2.index t (0 : Fin 2) * 2048 + 2048; rw [e0, ht]; omega
    | ⟨1, _⟩ => show win0_2.index t (1 : Fin 2) * 16 ≤ (i 1).val ∧ (i 1).val < win0_2.index t (1 : Fin 2) * 16 + 16; rw [e1]; omega

/-! ## The loss output -/

/-- The last point. -/
abbrev tLast : Fin cfg0.N := ⟨1023, by rw [show cfg0.N = 1024 from N_0]; decide⟩

/-- The carried accumulator after the last point, as contents of the 1x1 loss array. -/
abbrev lossArr (c : Dev nD) : S1x1.Idx → EReal := acc m c 1023 tLast.isLt

/-- The one write-back of the loss output, at the last point, writes the accumulator: the 1x1 block is the array. -/
theorem flushed3_eq (c : Dev nD) (t : Fin cfg0.N) (hf : (cfg0.win 3).flush t = true) :
    (dats m 0 c).flushed 3 t = ((cfg0.win 3).blk t).view.read (Elt Ideal) (lossArr m c) := by
  have hN : cfg0.N = 1024 := N_0
  have h3 : t.val = 1023 := by have := (flush0_3 t).mp hf; have := t.isLt; omega
  obtain rfl : t = tLast := Fin.ext h3
  show (cfg0.win 3).cut (grid0.coords tLast) ((dats m 0 c).after 3 tLast) = _
  rw [after0_3, out3_last m c tLast (by decide)]
  have hz' : (fun a => win0_3.index tLast a * main_v1_1.ty.shape.size a) = fun _ => 0 := funext fun a => by fin_cases a <;> decide +kernel
  exact (Memref.read_access_unit_zero (Elt Ideal) main_v1_1 hz' (fun a => by rw [congrFun hz' a]; simp) (lossArr m c)).symm

theorem final3 (c : Dev nD) : (dats m 0 c).arrAt 3 cfg0.N = lossArr m c :=
  (dats m 0 c).arrAt_eq_of_cover 3 (lossArr m c) (flushed3_eq m c) fun i =>
    ⟨tLast, (flush0_3 tLast).mpr (by decide), by
      show i ∈ ((View.whole main_v1_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-! ## The accumulator in closed form -/

/-- The summed row losses of block `t` (zero past the grid). -/
def blockLoss (c : Dev nD) (t : ℕ) : EReal :=
  if ht : t < cfg0.N then ∑ r : Fin 2048, rowLoss m c (grow ⟨t, ht⟩ r) else 0

/-- One point's update of the accumulator, at its one element: the block's summed row losses added. -/
theorem step_apply (c : Dev nD) (t : Fin cfg0.N) (a : Vec Ideal S1x1 .f32) :
    step (F := Ideal) (xblk m c t) (lblk m c t) a (ix2 (0 : Fin 1) (0 : Fin 1)) = a (ix2 0 0) + blockLoss m c t.val := by
  unfold step
  rw [Cert.KernelRows.pay1_apply]
  unfold blockLoss
  rw [dif_pos t.isLt]
  refine congrArg (a (ix2 0 0) + ·) (Finset.sum_congr rfl fun r _ => ?_)
  unfold rowLoss
  show Cert.Spec.nllK (Cert.Spec.insertK (fun k : Fin 16 => xblk m c t (ix2 r k)) (lblk m c t (ix2 r (0 : Fin 1)))) (lblk m c t (ix2 r (0 : Fin 1)))
    = Cert.Spec.nllK (Cert.Spec.insertK (row m c (grow t r)) (lab m c (grow t r))) (lab m c (grow t r))
  rw [lblk_apply]
  exact congrArg (fun f => Cert.Spec.nllK (Cert.Spec.insertK f (lab m c (grow t r))) (lab m c (grow t r))) (funext fun k => xblk_apply m c t r k)

/-- After point `n` the accumulator is zero plus the block losses up to `n`. -/
theorem acc_apply (c : Dev nD) : ∀ (n : ℕ) (h : n < cfg0.N),
    acc m c n h (ix2 (0 : Fin 1) (0 : Fin 1)) = Cert.Spec.zero + ∑ t ∈ Finset.range (n + 1), blockLoss m c t
  | 0, h => by
    show step (xblk m c ⟨0, h⟩) (lblk m c ⟨0, h⟩) (k0_pay2 (F := Ideal)) (ix2 0 0) = _
    rw [step_apply m c ⟨0, h⟩, Cert.KernelRows.pay2_apply, Finset.sum_range_one]
  | n + 1, h => by
    show step (xblk m c ⟨n + 1, h⟩) (lblk m c ⟨n + 1, h⟩) (acc m c n (Nat.lt_of_succ_lt h)) (ix2 0 0) = _
    rw [step_apply m c ⟨n + 1, h⟩, acc_apply c n (Nat.lt_of_succ_lt h), Finset.sum_range_succ _ (n + 1), add_assoc]

/-- The loss output's one element: zero plus the sum of every row's loss. -/
theorem loss_apply (c : Dev nD) :
    lossArr m c (ix2 (0 : Fin 1) (0 : Fin 1)) = Cert.Spec.zero + ∑ i : Fin 2097152, rowLoss m c i := by
  have hN : cfg0.N = 1024 := N_0
  show acc m c 1023 tLast.isLt (ix2 0 0) = _
  rw [acc_apply m c 1023 tLast.isLt, ← Cert.Spec.sum_blocks (rowLoss m c), Finset.sum_range]
  refine congrArg (Cert.Spec.zero + ·) (Finset.sum_congr rfl fun t _ => ?_)
  unfold blockLoss
  rw [dif_pos (by rw [hN]; exact t.isLt)]

end Cert.KernelIdeal.Arr

end
-- ==== Proof.KernelTail.lean ====
/-
  What the lines after the pipelined call make of its two result arrays.

  The loss array's one element is divided by the number of rows. The labels are argsorted (a stable sort of the pairs
  (label, position) by label, keeping the positions), the positions are wrapped where negative and laid out as a
  column of start indices, and the rows of the transformed logits and the labels themselves are gathered in that
  order. The three results are these functions of the two result arrays and of the label argument.
-/
import proofs.«424771_j14370960572484_1_alg».proof.Proof.KernelArray
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Tail

open Cert.KernelIdeal Cert.KernelIdeal.Gen Cert.KernelIdeal.Arr

/-- The stable argsort of the labels: the positions carried through the sort. -/
def order (L : IVec S2097152 32) : IVec S2097152 32 :=
  (Host.sort2 S2097152 0 comparator_i32_i32_d0 L (iotaInDim S2097152 32 0)).2

/-- Positions wrapped where negative, as a column of start indices. -/
def wrapCol (o : IVec S2097152 32) : IVec S2097152x1 32 :=
  broadcastInDim S2097152x1 ![0] bcast_S2097152_S2097152x1_0
    (select (cmpi .slt o (broadcastInDim S2097152 ![] bcast_S_S2097152 (constantI S_ 32 0#32)))
      (addi o (broadcastInDim S2097152 ![] bcast_S_S2097152 (constantI S_ 32 2097152#32))) o)

/-- The rows of `D` in sorted order. -/
def sortedRows (D : FVec Ideal S2097152x16 .f32) (L : IVec S2097152 32) : FVec Ideal S2097152x16 .f32 :=
  Host.gather gather_S2097152x16_S2097152x1_S2097152x16_1_0_n_n_0_1_116 D (wrapCol (order L))

/-- The labels in sorted order. -/
def sortedLabels (L : IVec S2097152 32) : IVec S2097152 32 :=
  Host.gather gather_S2097152_S2097152x1_S2097152_n_0_n_n_0_1_1 L (wrapCol (order L))

/-- The 1x1 loss cell divided by the number of rows, as a scalar. -/
def mean (A : FVec Ideal S1x1 .f32) : FVec Ideal S_ .f32 :=
  Host.divf (shapeCast S_ A shapeCasts_S1x1_S_) (constant S_ .f32 0x4A000000#32)

/-- The scalar's one element: the cell's element over the count. -/
theorem mean_apply (A : FVec Ideal S1x1 .f32) : mean A ix0 = Ideal.div (A (ix2 (0 : Fin 1) (0 : Fin 1))) Cert.Spec.count := by
  unfold mean
  show Ideal.div (shapeCast S_ A shapeCasts_S1x1_S_ ix0) (Ideal.ofBits .f32 0x4A000000#32) = _
  rw [shapeCast_apply A shapeCasts_S1x1_S_ ix0 (ix2 (0 : Fin 1) (0 : Fin 1)) (by
    have h1 : (S1x1.rowMajor (ix2 (0 : Fin 1) (0 : Fin 1))).val < 1 := lt_of_lt_of_eq (S1x1.rowMajor _).isLt (by decide)
    have h2 : (S_.rowMajor ix0).val < 1 := lt_of_lt_of_eq (S_.rowMajor _).isLt (by decide)
    omega)]
  rfl

variable (m : (ℓ : Loc nD τ sig) → Buf (Elt Ideal) ℓ) (ρ : Dev nD → PrngReg)

/-- What the lines after the call find in the call's two result arrays and in the label argument. -/
theorem found2 (c : Dev nD) :
    Pipeline.withArrays (cfgs 0).spec c (V0 m c) (fun w => (dats m 0 c).arrAt w (cfgs 0).N) (Proc.devRef .tc main_v1_0) = data m c :=
  (Pipeline.withArrays_arr spec0 launch0.win.arr_inj c _ _ 2).trans (final2 m c)

theorem found3 (c : Dev nD) :
    Pipeline.withArrays (cfgs 0).spec c (V0 m c) (fun w => (dats m 0 c).arrAt w (cfgs 0).N) (Proc.devRef .tc main_v1_1) = lossArr m c :=
  (Pipeline.withArrays_arr spec0 launch0.win.arr_inj c _ _ 3).trans (final3 m c)

theorem foundL (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans (V_main_arg1 m c)

set_option maxHeartbeats 4000000 in
/-- The loss result. -/
theorem v3_eq (c : Dev nD) :
    Pipeline.afterTail₀ cfgs (dats m) 0 (V0 m) [hostOps1, hostOps1_1, hostOps1_2] c main_v3 = mean (lossArr m c) := by
  unfold Pipeline.afterTail₀
  simp only [hostOps1, hostOps1_1, hostOps1_2, List.flatten_cons, List.flatten_nil, List.append_nil, List.cons_append, List.nil_append]
  after_results_simp
  rw [found3 m c]
  rfl

set_option maxHeartbeats 4000000 in
/-- The sorted rows. -/
theorem v11_eq (c : Dev nD) :
    Pipeline.afterTail₀ cfgs (dats m) 0 (V0 m) [hostOps1, hostOps1_1, hostOps1_2] c main_v11
      = sortedRows (data m c) (m ((c : Thread nD τ).loc main_arg1)) := by
  unfold Pipeline.afterTail₀
  simp only [hostOps1, hostOps1_1, hostOps1_2, List.flatten_cons, List.flatten_nil, List.append_nil, List.cons_append, List.nil_append]
  after_results_simp
  rw [found2 m c, foundL m c]
  rfl

set_option maxHeartbeats 4000000 in
/-- The sorted labels. -/
theorem v18_eq (c : Dev nD) :
    Pipeline.afterTail₀ cfgs (dats m) 0 (V0 m) [hostOps1, hostOps1_1, hostOps1_2] c main_v18
      = sortedLabels (m ((c : Thread nD τ).loc main_arg1)) := by
  unfold Pipeline.afterTail₀
  simp only [hostOps1, hostOps1_1, hostOps1_2, List.flatten_cons, List.flatten_nil, List.append_nil, List.cons_append, List.nil_append]
  after_results_simp
  rw [foundL m c]
  rfl

/-- The kernel's run with its three results named. -/
theorem run : θ_run defs (onTc (τ := τ) (main (F := Ideal))) ⟨m, fun _ => 0, ρ⟩ fun r => ∀ c : Dev nD,
      r.2.mem ((c.tc : Thread nD τ).loc main_v11) = sortedRows (data m c) (m ((c : Thread nD τ).loc main_arg1))
      ∧ r.2.mem ((c.tc : Thread nD τ).loc main_v18) = sortedLabels (m ((c : Thread nD τ).loc main_arg1))
      ∧ r.2.mem ((c.tc : Thread nD τ).loc main_v3) = mean (lossArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (v11_eq m c),
     ((h c).2 main_v18 (Pipeline.mem_restRefs_of main_v18 (by decide) (by decide))).trans (v18_eq m c),
     ((h c).2 main_v3 (Pipeline.mem_restRefs_of main_v3 (by decide) (by decide))).trans (v3_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Tail

end
-- ==== Proof.SpecArrays.lean ====
/-
  The two programs' common value, over whole arrays.

  For logits `X` of 2,097,152 rows by 16 and label words `L` all among the sixteen positions: the data array is every
  row with its label's logit replaced by its image; the loss is the rows' smoothed negative log likelihoods (each
  taken on the replaced row, at its label) summed from zero and divided by the number of rows.
-/
import proofs.«424771_j14370960572484_1_alg».proof.Proof.Spec
import Idealize.ShloMosaic.Lib.SortFacts

noncomputable section

namespace Cert.Spec

open Idealize.ShloMosaic Idealize.ShloMosaic.ValueIdx

abbrev SBC : Shape := ⟨2, ![2097152, 16]⟩
abbrev SB : Shape := ⟨1, ![2097152]⟩

/-- The rank-1 index built from a position is the one that matches on the axis. -/
theorem ofFin_eq_ix1 {n : Nat} (k : Fin n) : Shape.Idx.ofFin k = ix1 k :=
  funext fun d => match d with | ⟨0, _⟩ => Fin.ext rfl

/-- Every label word is one of the sixteen positions. -/
def InRange (L : SB.Idx → BitVec 32) : Prop := ∀ i : Fin 2097152, (L (ix1 i)).toNat < 16

/-- Row `i`'s label, as a position. -/
def lbl (L : SB.Idx → BitVec 32) (hL : InRange L) (i : Fin 2097152) : Fin 16 := ⟨(L (ix1 i)).toNat, hL i⟩

theorem lbl_val (L : SB.Idx → BitVec 32) (hL : InRange L) (i : Fin 2097152) : (L (ix1 i)).toNat = (lbl L hL i).val := rfl

/-- Row `i` of the logits. -/
def rowOf (X : SBC.Idx → EReal) (i : Fin 2097152) : Row := fun k => X (ix2 i k)

/-- The data array: every row with its label's logit replaced. -/
def dataOf (X : SBC.Idx → EReal) (L : SB.Idx → BitVec 32) (hL : InRange L) : SBC.Idx → EReal :=
  fun p => insert (rowOf X (p 0)) (lbl L hL (p 0)) (p 1)

/-- Row `i`'s loss. -/
def rowLossOf (X : SBC.Idx → EReal) (L : SB.Idx → BitVec 32) (hL : InRange L) (i : Fin 2097152) : EReal :=
  nll (insert (rowOf X i) (lbl L hL i)) (lbl L hL i)

/-- The mean loss. -/
def lossOf (X : SBC.Idx → EReal) (L : SB.Idx → BitVec 32) (hL : InRange L) : EReal :=
  Ideal.div (zero + ∑ i : Fin 2097152, rowLossOf X L hL i) count

/-- A row of the data array is the replaced row. -/
theorem rowOf_dataOf (X : SBC.Idx → EReal) (L : SB.Idx → BitVec 32) (hL : InRange L) (i : Fin 2097152) :
    rowOf (dataOf X L hL) i = insert (rowOf X i) (lbl L hL i) := rfl

end Cert.Spec

end
-- ==== Proof.KernelValue.lean ====
/-
  The kernel's results as the common value.

  The call finds the logits as the first argument and the label column as the label argument laid out as a column.
  Where every label word is one of the sixteen positions, the mask readings of the kernel are the index readings of
  the specification: the array of transformed logits is the specification's data array and the loss cell over the
  count is the specification's mean loss.
-/
import proofs.«424771_j14370960572484_1_alg».proof.Proof.KernelTail
import proofs.«424771_j14370960572484_1_alg».proof.Proof.SpecArrays

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KValue

open Cert.KernelIdeal Cert.KernelIdeal.Gen Cert.KernelIdeal.Arr Cert.KernelIdeal.Tail

variable (m : (ℓ : Loc nD τ sig) → Buf (Elt Ideal) ℓ)

/-- The two arguments at the specification's types. -/
abbrev Xarg (c : Dev nD) : Cert.Spec.SBC.Idx → EReal := m ((c : Thread nD τ).loc main_arg0)
abbrev Larg (c : Dev nD) : Cert.Spec.SB.Idx → BitVec 32 := m ((c : Thread nD τ).loc main_arg1)

/-- The label column the call finds is the label argument, reshaped. -/
theorem Lc_eq (c : Dev nD) :
    Lc m c = shapeCast S2097152x1 (m ((c : Thread nD τ).loc main_arg1)) shapeCasts_S2097152_S2097152x1 := by
  show StableHlo.after (List.flatten [hostOps0]) (fun b => m (c, b)) (Proc.devRef .tc main_v0) = _
  simp only [hostOps0, List.flatten_cons, List.flatten_nil, List.append_nil]
  after_results
  rfl

/-- Row `i`'s label word, as the call finds it, is entry `i` of the label argument. -/
theorem lab_eq (c : Dev nD) (i : Fin 2097152) : lab m c i = Larg m c (ix1 i) := by
  unfold lab
  rw [Lc_eq]
  exact shapeCast_apply _ _ (ix2 i (0 : Fin 1)) (ix1 i) (by
    rw [Shape.rowMajor_val_one, Shape.rowMajor_val_two]
    show i.val = i.val * 1 + 0
    omega)

/-- Row `i` of the logits, as the call finds them, is row `i` of the first argument. -/
theorem row_eq (c : Dev nD) (i : Fin 2097152) : row m c i = Cert.Spec.rowOf (Xarg m c) i := by
  funext k
  unfold row X Cert.Spec.rowOf
  rw [V_main_arg0 m c]

/-- The array of transformed logits is the specification's data array. -/
theorem data_eq (c : Dev nD) (hL : Cert.Spec.InRange (Larg m c)) :
    data m c = Cert.Spec.dataOf (Xarg m c) (Larg m c) hL := by
  funext p
  obtain ⟨i, j, rfl⟩ : ∃ (i : Fin 2097152) (j : Fin 16), p = ix2 i j := ⟨p 0, p 1, eq_ix2 p⟩
  show Cert.Spec.insertK (row m c i) (lab m c i) j
    = Cert.Spec.insert (Cert.Spec.rowOf (Xarg m c) i) (Cert.Spec.lbl (Larg m c) hL i) j
  rw [Cert.Spec.insertK_eq _ _ (Cert.Spec.lbl (Larg m c) hL i) (by rw [lab_eq]; rfl), row_eq]

/-- A row's loss by the mask is the specification's. -/
theorem rowLoss_eq (c : Dev nD) (hL : Cert.Spec.InRange (Larg m c)) (i : Fin 2097152) :
    rowLoss m c i = Cert.Spec.rowLossOf (Xarg m c) (Larg m c) hL i := by
  have hw : (lab m c i).toNat = (Cert.Spec.lbl (Larg m c) hL i).val := by rw [lab_eq]; rfl
  unfold rowLoss Cert.Spec.rowLossOf
  rw [Cert.Spec.nllK_eq _ _ _ hw, Cert.Spec.insertK_eq _ _ _ hw, row_eq]

/-- The loss result is the specification's mean loss. -/
theorem mean_eq (c : Dev nD) (hL : Cert.Spec.InRange (Larg m c)) :
    mean (lossArr m c) = fun _ => Cert.Spec.lossOf (Xarg m c) (Larg m c) hL := by
  funext i
  rw [eq_ix0 i, mean_apply, loss_apply]
  unfold Cert.Spec.lossOf
  exact congrArg (fun s => Ideal.div (Cert.Spec.zero + s) Cert.Spec.count)
    (Finset.sum_congr rfl fun r _ => rowLoss_eq m c hL r)

end Cert.KernelIdeal.KValue

end
-- ==== Proof.RefDefs.lean ====
/-
  The reference's stages as functions.

  The reference reads each row's logit at its label (a gather at (row, label) pairs, both wrapped where negative),
  applies the piecewise affine map, scatters the result back at the same pairs, argsorts the labels stably and gathers
  the rows and the labels in that order, takes the log-softmax of the sorted rows, reads it at (row, sorted label),
  and averages the smoothed negative log likelihoods. Each stage is written here once, as a function of its inputs,
  so that the program's run and the index-by-index reading of the stages can both be stated over the same terms.
-/
import proofs.«424771_j14370960572484_1_alg».proof.ReferenceIdeal
import proofs.«424771_j14370960572484_1_alg».proof.Proof.Gen.ReferenceIdeal

noncomputable section

namespace Cert.ReferenceIdeal.RefDefs

open Cert.ReferenceIdeal Cert.ReferenceIdeal.Gen Idealize.ShloMosaic

variable {F : FTy → Type} [FloatOps F]

/-- The positions 0, 1, 2, ... as words. -/
abbrev iota : IVec S2097152 32 := iotaInDim S2097152 32 0

/-- An index word with `n` added where it is negative (the wrap-around of a negative index). -/
def wrap (o : IVec S2097152 32) (n : BitVec 32) : IVec S2097152 32 :=
  select (cmpi .slt o (broadcastInDim S2097152 ![] bcast_S_S2097152 (constantI S_ 32 0#32)))
    (addi o (broadcastInDim S2097152 ![] bcast_S_S2097152 (constantI S_ 32 n))) o

/-- A vector of words as a column. -/
def col (o : IVec S2097152 32) : IVec S2097152x1 32 := broadcastInDim S2097152x1 ![0] bcast_S2097152_S2097152x1_0 o

/-- The (row, column) start pairs: rows wrapped by the number of rows, columns by sixteen. -/
def pairs (rows cols : IVec S2097152 32) : IVec S2097152x2 32 :=
  concatenate S2097152x2 1 [⟨S2097152x1, col (wrap rows 2097152#32)⟩, ⟨S2097152x1, col (wrap cols 16#32)⟩]
    concatenates_S2097152x1_S2097152x1_S2097152x2_d1

/-- One entry per row of `X`, at that row's start pair. -/
def pickAt (X : FVec F S2097152x16 .f32) (P : IVec S2097152x2 32) : FVec F S2097152 .f32 :=
  Host.gather gather_S2097152x16_S2097152x2_S2097152_n_01_n_n_01_1_11 X P

/-- The piecewise affine map of the picked logits. -/
def vals (x : FVec F S2097152 .f32) : FVec F S2097152 .f32 :=
  select (cmpf .ogt x (broadcastInDim S2097152 ![] bcast_S_S2097152 (constant S_ .f32 0x00000000#32)))
    (subf (Host.divf x (broadcastInDim S2097152 ![] bcast_S_S2097152 (constant S_ .f32 0x4040002A#32)))
      (broadcastInDim S2097152 ![] bcast_S_S2097152 (constant S_ .f32 0x3F800000#32)))
    (subf (mulf x (broadcastInDim S2097152 ![] bcast_S_S2097152 (constant S_ .f32 0x4040002A#32)))
      (broadcastInDim S2097152 ![] bcast_S_S2097152 (constant S_ .f32 0x3F800000#32)))

/-- The logits with every row's label entry replaced. -/
def scattered (X : FVec F S2097152x16 .f32) (L : IVec S2097152 32) : FVec F S2097152x16 .f32 :=
  Host.scatter scatter_S2097152x16_S2097152x2_S2097152_n_01_01_1 (fun _ b => b) X (pairs iota L)
    (vals (pickAt X (pairs iota L)))

/-- The stable argsort of the labels. -/
def order (L : IVec S2097152 32) : IVec S2097152 32 :=
  (Host.sort2 S2097152 0 comparator_i32_i32_d0 L (iotaInDim S2097152 32 0)).2

/-- The rows of `D`, and the labels, in sorted order. -/
def sortedRows (D : FVec F S2097152x16 .f32) (L : IVec S2097152 32) : FVec F S2097152x16 .f32 :=
  Host.gather gather_S2097152x16_S2097152x1_S2097152x16_1_0_n_n_0_1_116 D (col (wrap (order L) 2097152#32))
def sortedLabels (L : IVec S2097152 32) : IVec S2097152 32 :=
  Host.gather gather_S2097152_S2097152x1_S2097152_n_0_n_n_0_1_1 L (col (wrap (order L) 2097152#32))

/-- The rows' largest entries (folded from minus infinity, then compared with minus infinity again), as a column
    broadcast over the rows. -/
def rowMaxB (D : FVec F S2097152x16 .f32) : FVec F S2097152x16 .f32 :=
  broadcastInDim S2097152x16 ![0, 1] bcast_S2097152x1_S2097152x16_0_1
    (broadcastInDim S2097152x1 ![0] bcast_S2097152_S2097152x1_0
      (maximumf (broadcastInDim S2097152 ![] bcast_S_S2097152 (constant S_ .f32 0xFF800000#32))
        (Host.reduce FloatOps.maximumf D (constant S_ .f32 0xFF800000#32) reducesTo_S2097152x16_S2097152_d1 h_S_)))

/-- The rows shifted by their largest entries. -/
def shifted (D : FVec F S2097152x16 .f32) : FVec F S2097152x16 .f32 := subf D (rowMaxB D)

/-- The log-softmax of every row. -/
def logSoftmax (D : FVec F S2097152x16 .f32) : FVec F S2097152x16 .f32 :=
  subf (shifted D)
    (broadcastInDim S2097152x16 ![0, 1] bcast_S2097152x1_S2097152x16_0_1
      (Host.log (broadcastInDim S2097152x1 ![0] bcast_S2097152_S2097152x1_0
        (Host.reduceAdd (Host.exp (shifted D)) (constant S_ .f32 0x00000000#32) reducesTo_S2097152x16_S2097152_d1 h_S_))))

/-- The rows' smoothed negative log likelihoods, from their log-softmax `Z` and the sorted labels. -/
def rowNll (Z : FVec F S2097152x16 .f32) (Ls : IVec S2097152 32) : FVec F S2097152 .f32 :=
  Host.negf (addf
    (mulf (broadcastInDim S2097152 ![] bcast_S_S2097152 (constant S_ .f32 0x3F666666#32)) (pickAt Z (pairs iota Ls)))
    (mulf (broadcastInDim S2097152 ![] bcast_S_S2097152 (constant S_ .f32 0x3BCCCCCD#32))
      (Host.reduceAdd Z (constant S_ .f32 0x00000000#32) reducesTo_S2097152x16_S2097152_d1 h_S_)))

/-- The mean loss. -/
def loss (D : FVec F S2097152x16 .f32) (Ls : IVec S2097152 32) : FVec F S_ .f32 :=
  Host.divf (Host.reduceAdd (rowNll (logSoftmax D) Ls) (constant S_ .f32 0x00000000#32) reducesTo_S2097152_S_d0 h_S_)
    (constant S_ .f32 0x4A000000#32)

end Cert.ReferenceIdeal.RefDefs

end
-- ==== Proof.RefValue.lean ====
/-
  The reference's run over its stages.

  The program is one straight line of host operations. Its first stretch ends with the sorted rows of the replaced
  logits and the sorted labels; its second stretch computes the loss from those two and from the positions 0, 1, 2, ...
  that the first operation writes. The second stretch is read a few operations at a time: the rows' maxima, their
  comparison with minus infinity, the shift, the sum of exponentials, the logarithm subtracted, the start pairs with
  the gather, and the arithmetic ending in the mean; each short stretch writes what its stage function says of what
  it finds and leaves the other buffers alone. So the three results are the stage functions applied to the two
  arguments.
-/
import proofs.«424771_j14370960572484_1_alg».proof.Proof.RefRun
import proofs.«424771_j14370960572484_1_alg».proof.Proof.RefDefs

noncomputable section

namespace Cert.ReferenceIdeal.RefValue

open Cert.ReferenceIdeal Cert.ReferenceIdeal.Gen Cert.ReferenceIdeal.ValueP Cert.ReferenceIdeal.RefDefs
open Idealize.ShloMosaic Idealize.ShloMosaic.TcCoe Idealize.SL.Sem Idealize.ShloMosaic.StableHlo

variable {F : FTy → Type} [FloatOps F]

/-! ## The short stretches of the second half -/

set_option maxRecDepth 8192 in
set_option maxHeartbeats 16000000 in
/-- The rows' maxima, folded from minus infinity. -/
theorem a_max (W : Valuation τ sig (Elt F)) :
    after opsBa W (Proc.devRef .tc main_call2_v0) = Host.reduce FloatOps.maximumf (W (Proc.devRef .tc main_v47)) (constant S_ .f32 0xFF800000#32) reducesTo_S2097152x16_S2097152_d1 h_S_ := by
  after_results_simp
  try simp only [TRef.ofBuf, TRef.toBuf, cast_eq]
  try rfl

set_option maxRecDepth 8192 in
set_option maxHeartbeats 16000000 in
theorem a_keep47 (W : Valuation τ sig (Elt F)) :
    after opsBa W (Proc.devRef .tc main_v47) = (W (Proc.devRef .tc main_v47)) := by
  after_results_simp
  try simp only [TRef.ofBuf, TRef.toBuf, cast_eq]
  try rfl

set_option maxRecDepth 8192 in
set_option maxHeartbeats 16000000 in
/-- ... compared with minus infinity again. -/
theorem b_max (W : Valuation τ sig (Elt F)) :
    after opsBb W (Proc.devRef .tc main_call2_v2) = maximumf (broadcastInDim S2097152 ![] bcast_S_S2097152 (constant S_ .f32 0xFF800000#32)) (W (Proc.devRef .tc main_call2_v0)) := by
  after_results_simp
  try simp only [TRef.ofBuf, TRef.toBuf, cast_eq]
  try rfl

set_option maxRecDepth 8192 in
set_option maxHeartbeats 16000000 in
theorem b_keep47 (W : Valuation τ sig (Elt F)) :
    after opsBb W (Proc.devRef .tc main_v47) = (W (Proc.devRef .tc main_v47)) := by
  after_results_simp
  try simp only [TRef.ofBuf, TRef.toBuf, cast_eq]
  try rfl

set_option maxRecDepth 8192 in
set_option maxHeartbeats 16000000 in
/-- The rows shifted by their maxima. -/
theorem c_shift (W : Valuation τ sig (Elt F)) :
    after opsBc W (Proc.devRef .tc main_call2_v5) = subf (W (Proc.devRef .tc main_v47)) (broadcastInDim S2097152x16 ![0, 1] bcast_S2097152x1_S2097152x16_0_1 (broadcastInDim S2097152x1 ![0] bcast_S2097152_S2097152x1_0 (W (Proc.devRef .tc main_call2_v2)))) := by
  after_results_simp
  try simp only [TRef.ofBuf, TRef.toBuf, cast_eq]
  try rfl

set_option maxRecDepth 8192 in
set_option maxHeartbeats 16000000 in
/-- The rows' sums of exponentials. -/
theorem d_sum (W : Valuation τ sig (Elt F)) :
    after opsBd W (Proc.devRef .tc main_call2_v7) = Host.reduceAdd (Host.exp (W (Proc.devRef .tc main_call2_v5))) (constant S_ .f32 0x00000000#32) reducesTo_S2097152x16_S2097152_d1 h_S_ := by
  after_results_simp
  try simp only [TRef.ofBuf, TRef.toBuf, cast_eq]
  try rfl

set_option maxRecDepth 8192 in
set_option maxHeartbeats 16000000 in
theorem d_keep5 (W : Valuation τ sig (Elt F)) :
    after opsBd W (Proc.devRef .tc main_call2_v5) = (W (Proc.devRef .tc main_call2_v5)) := by
  after_results_simp
  try simp only [TRef.ofBuf, TRef.toBuf, cast_eq]
  try rfl

set_option maxRecDepth 8192 in
set_option maxHeartbeats 16000000 in
/-- The logarithm of the sums subtracted from the shifted rows. -/
theorem e_lsm (W : Valuation τ sig (Elt F)) :
    after opsBe W (Proc.devRef .tc main_v55) = subf (W (Proc.devRef .tc main_call2_v5)) (broadcastInDim S2097152x16 ![0, 1] bcast_S2097152x1_S2097152x16_0_1 (Host.log (broadcastInDim S2097152x1 ![0] bcast_S2097152_S2097152x1_0 (W (Proc.devRef .tc main_call2_v7))))) := by
  after_results_simp
  try simp only [TRef.ofBuf, TRef.toBuf, cast_eq]
  try rfl

set_option maxRecDepth 8192 in
set_option maxHeartbeats 16000000 in
/-- The log-softmax read at the (row, sorted label) pairs. -/
theorem p_pick (W : Valuation τ sig (Elt F)) :
    after opsB2 W (Proc.devRef .tc main_v69) = pickAt (W (Proc.devRef .tc main_v55)) (pairs (W (Proc.devRef .tc main_v0)) (W (Proc.devRef .tc main_v54))) := by
  after_results_simp
  try simp only [TRef.ofBuf, TRef.toBuf, cast_eq]
  try rfl

set_option maxRecDepth 8192 in
set_option maxHeartbeats 16000000 in
theorem p_keep55 (W : Valuation τ sig (Elt F)) :
    after opsB2 W (Proc.devRef .tc main_v55) = (W (Proc.devRef .tc main_v55)) := by
  after_results_simp
  try simp only [TRef.ofBuf, TRef.toBuf, cast_eq]
  try rfl

set_option maxRecDepth 8192 in
set_option maxHeartbeats 16000000 in
/-- The weighted sums, negated, summed over the rows and divided by the count. -/
theorem m_mean (W : Valuation τ sig (Elt F)) :
    after opsB3 W (Proc.devRef .tc main_v78) = Host.divf (Host.reduceAdd (Host.negf (addf
        (mulf (broadcastInDim S2097152 ![] bcast_S_S2097152 (constant S_ .f32 0x3F666666#32)) (W (Proc.devRef .tc main_v69)))
        (mulf (broadcastInDim S2097152 ![] bcast_S_S2097152 (constant S_ .f32 0x3BCCCCCD#32))
          (Host.reduceAdd (W (Proc.devRef .tc main_v55)) (constant S_ .f32 0x00000000#32) reducesTo_S2097152x16_S2097152_d1 h_S_))))
      (constant S_ .f32 0x00000000#32) reducesTo_S2097152_S_d0 h_S_) (constant S_ .f32 0x4A000000#32) := by
  after_results_simp
  try simp only [TRef.ofBuf, TRef.toBuf, cast_eq]
  try rfl

/-- The five log-softmax stretches in a row. -/
abbrev opsB1 : List (HloOp τ sig (Elt F)) := opsBa ++ (opsBb ++ (opsBc ++ (opsBd ++ opsBe)))

set_option maxRecDepth 8192 in
set_option maxHeartbeats 16000000 in
/-- The log-softmax stretches write neither the positions nor the sorted labels. -/
theorem lsm_keep0 (W : Valuation τ sig (Elt F)) : after opsB1 W (Proc.devRef .tc main_v0) = W (Proc.devRef .tc main_v0) := by
  simp only [opsB1, StableHlo.after_append]
  after_results_simp
set_option maxRecDepth 8192 in
set_option maxHeartbeats 16000000 in
theorem lsm_keep54 (W : Valuation τ sig (Elt F)) : after opsB1 W (Proc.devRef .tc main_v54) = W (Proc.devRef .tc main_v54) := by
  simp only [opsB1, StableHlo.after_append]
  after_results_simp

/-- The five stretches together leave the log-softmax of the sorted rows they find. -/
theorem lsm (W : Valuation τ sig (Elt F)) :
    after opsB1 W (Proc.devRef .tc main_v55) = logSoftmax (W (Proc.devRef .tc main_v47)) := by
  simp only [opsB1, StableHlo.after_append]
  rw [e_lsm, d_sum, d_keep5, c_shift, b_max, b_keep47, a_max, a_keep47]
  rfl

/-- The loss with the row positions as a parameter (the program reads them from the buffer its first operation
    wrote): at the positions 0, 1, 2, ... it is the stage function. -/
def lossI (I : IVec S2097152 32) (D : FVec F S2097152x16 .f32) (Ls : IVec S2097152 32) : FVec F S_ .f32 :=
  Host.divf (Host.reduceAdd (Host.negf (addf
      (mulf (broadcastInDim S2097152 ![] bcast_S_S2097152 (constant S_ .f32 0x3F666666#32)) (pickAt (logSoftmax D) (pairs I Ls)))
      (mulf (broadcastInDim S2097152 ![] bcast_S_S2097152 (constant S_ .f32 0x3BCCCCCD#32))
        (Host.reduceAdd (logSoftmax D) (constant S_ .f32 0x00000000#32) reducesTo_S2097152x16_S2097152_d1 h_S_))))
    (constant S_ .f32 0x00000000#32) reducesTo_S2097152_S_d0 h_S_) (constant S_ .f32 0x4A000000#32)

theorem lossI_iota (D : FVec F S2097152x16 .f32) (Ls : IVec S2097152 32) : lossI RefDefs.iota D Ls = loss D Ls := rfl

/-- The second half, from any contents: the loss of the sorted rows and sorted labels it finds, at the positions it
    finds. -/
theorem tail_loss (W : Valuation τ sig (Elt F)) :
    after opsB W (Proc.devRef .tc main_v78)
      = lossI (W (Proc.devRef .tc main_v0)) (W (Proc.devRef .tc main_v47)) (W (Proc.devRef .tc main_v54)) := by
  have hs : (opsB : List (HloOp τ sig (Elt F))) = opsB1 ++ (opsB2 ++ opsB3) := by
    rw [opsB_split]; simp only [opsB1, List.append_assoc]
  rw [hs, StableHlo.after_append, StableHlo.after_append, m_mean, p_pick, p_keep55, lsm, lsm_keep0, lsm_keep54]
  rfl

variable (m : (ℓ : Loc nD τ sig) → Buf (Elt F) ℓ) (ρ : Dev nD → PrngReg)

/-! ## The first half -/

set_option maxRecDepth 8192 in
set_option maxHeartbeats 16000000 in
/-- The first stretch leaves the positions, the sorted rows and the sorted labels. -/
theorem head_v0 (c : Dev nD) : after opsA (launchContents m c) (Proc.devRef .tc main_v0) = iotaInDim S2097152 32 0 := by
  after_results_simp <;> rfl

set_option maxRecDepth 8192 in
set_option maxHeartbeats 16000000 in
theorem head_v47 (c : Dev nD) : after opsA (launchContents m c) (Proc.devRef .tc main_v47) = res_main_v47 m c := by
  after_results_simp <;> rfl <;> (unfold res_main_v47; rfl)

set_option maxRecDepth 8192 in
set_option maxHeartbeats 16000000 in
theorem head_v54 (c : Dev nD) :
    after opsA (launchContents m c) (Proc.devRef .tc main_v54) = sortedLabels (m ((c.tc : Thread nD τ).loc main_arg1)) := by
  after_results_simp <;> rfl

set_option maxRecDepth 8192 in
/-- The composed term of the first result is the sorted rows of the replaced logits. -/
theorem res47_eq (c : Dev nD) :
    res_main_v47 m c = sortedRows (scattered (m ((c.tc : Thread nD τ).loc main_arg0)) (m ((c.tc : Thread nD τ).loc main_arg1)))
      (m ((c.tc : Thread nD τ).loc main_arg1)) := by
  unfold res_main_v47; rfl

/-- The run with its three results as the stage functions of the arguments. -/
theorem run : θ_run defs (onTc (τ := τ) (main (F := F))) ⟨m, fun _ => 0, ρ⟩ fun r => ∀ c : Dev nD,
      r.2.mem ((c.tc : Thread nD τ).loc main_v47)
        = sortedRows (scattered (m ((c.tc : Thread nD τ).loc main_arg0)) (m ((c.tc : Thread nD τ).loc main_arg1))) (m ((c.tc : Thread nD τ).loc main_arg1))
      ∧ r.2.mem ((c.tc : Thread nD τ).loc main_v54) = sortedLabels (m ((c.tc : Thread nD τ).loc main_arg1))
      ∧ r.2.mem ((c.tc : Thread nD τ).loc main_v78)
        = loss (sortedRows (scattered (m ((c.tc : Thread nD τ).loc main_arg0)) (m ((c.tc : Thread nD τ).loc main_arg1))) (m ((c.tc : Thread nD τ).loc main_arg1)))
            (sortedLabels (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (res47_eq m c),
     (h c).2.1.trans rfl,
     (h c).2.2.1.trans ((tail_loss _).trans (by rw [head_v0, head_v47, head_v54, res47_eq]; rfl)),
     (h c).2.2.2.1, (h c).2.2.2.2⟩)
    (run_raw m ρ)

end Cert.ReferenceIdeal.RefValue

end
-- ==== Proof.RefRows.lean ====
/-
  The reference's stages read at an index.

  Each stage of the reference is an array-wide operation; here each is read at one row `r` (and lane `j`), so that the
  whole computation becomes a statement about rows. A vector laid as a column reads its entry of that row and a column
  repeated along the lanes reads the column's entry of that row; the two columns of start words set side by side read
  the first at lane 0 and the second at lane 1; a negative-index wrap leaves a word that is not negative alone; the
  piecewise affine map is entry by entry the specification's. A reduction along the lanes, read at row `r`, is the
  starting value combined with that row's sixteen entries: a sum started from the zero word adds nothing, and a maximum
  folded from minus infinity is at least minus infinity, so comparing with minus infinity once more changes nothing.
  Hence the rows' log-softmax is the specification's log-softmax of each row, a row's value is minus the weighted
  entry at its label plus the weighted row sum, and the loss is the sum of the rows' values, from zero, divided by the
  word of the row count; a sum over all the indices of a vector is the sum over its positions. Every statement is over
  a variable row, and the lemmas that do the work are stated for any number of rows. The float literals are the same
  words as the specification's and are never evaluated.
-/
import proofs.«424771_j14370960572484_1_alg».proof.Proof.RefDefs
import proofs.«424771_j14370960572484_1_alg».proof.Proof.Spec
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.RefRows

open Cert.ReferenceIdeal Cert.ReferenceIdeal.Gen Cert.ReferenceIdeal.RefDefs Idealize.ShloMosaic Idealize.ShloMosaic.ValueIdx

/-! ## A vector as a column, a column along the lanes -/

section Layout
variable {α : Type}

/-- A vector of `n` entries laid as the column `[n, 1]` reads, at row `p`, the vector's entry `p`. -/
theorem bcast_n_n1_apply {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  refine broadcastInDim_apply _ h v (ix2 p u) (ix1 p) fun a => ?_
  match a with
  | ⟨0, _⟩ =>
    show p.val = if n = 1 then 0 else p.val
    split
    · have := p.isLt; omega
    · rfl

/-- A column `[n, 1]` repeated along `m` lanes reads, at `(p, q)`, the column's entry of row `p`. -/
theorem bcast_n1_nm_apply {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) := by
  refine broadcastInDim_apply _ h v (ix2 p q) (ix2 p (0 : Fin 1)) fun a => ?_
  match a with
  | ⟨0, _⟩ =>
    show p.val = if n = 1 then 0 else p.val
    split
    · have := p.isLt; omega
    · rfl
  | ⟨1, _⟩ => rfl

end Layout

/-! ## The start pairs -/

/-- The column of a vector of words reads the vector's word of that row. -/
theorem col_apply (o : IVec S2097152 32) (r : Fin 2097152) : col o (ix2 r (0 : Fin 1)) = o (ix1 r) :=
  bcast_n_n1_apply bcast_S2097152_S2097152x1_0 o r (0 : Fin 1)

/-- A word that is not negative is left as it is by the wrap-around. -/
theorem wrap_apply_of_nonneg (o : IVec S2097152 32) (n : BitVec 32) (r : Fin 2097152)
    (h : ¬ IntOp.cmpi .slt (o (ix1 r)) 0#32 = 1#1) : wrap o n (ix1 r) = o (ix1 r) := by
  unfold wrap
  show Scalar.select (IntOp.cmpi .slt (o (ix1 r)) 0#32) _ (o (ix1 r)) = _
  rw [eq_zero_of_ne_one h]
  exact select_zero _ _

/-- The pair of row `r` has the wrapped row word first ... -/
theorem pairs_apply0 (rows cols : IVec S2097152 32) (r : Fin 2097152) :
    pairs rows cols (ix2 r (0 : Fin 2)) = wrap rows 2097152#32 (ix1 r) := by
  unfold pairs
  refine (concatenate_pair_apply_left (t := S2097152x2) (s₁ := S2097152x1) (s₂ := S2097152x1) (1 : Fin 2) _ _
    concatenates_S2097152x1_S2097152x1_S2097152x2_d1
    (ix2 r (0 : Fin 2)) rfl (ix2 r (0 : Fin 1) : S2097152x1.Idx) fun b => ?_).trans (col_apply _ r)
  match b with
  | ⟨0, _⟩ => rfl
  | ⟨1, _⟩ => rfl

/-- ... and the wrapped column word second. -/
theorem pairs_apply1 (rows cols : IVec S2097152 32) (r : Fin 2097152) :
    pairs rows cols (ix2 r (1 : Fin 2)) = wrap cols 16#32 (ix1 r) := by
  unfold pairs
  refine (concatenate_pair_apply_right (t := S2097152x2) (s₁ := S2097152x1) (s₂ := S2097152x1) (1 : Fin 2) _ _
    concatenates_S2097152x1_S2097152x1_S2097152x2_d1
    (ix2 r (1 : Fin 2)) rfl rfl (ix2 r (0 : Fin 1) : S2097152x1.Idx) (fun b hb => ?_) rfl).trans (col_apply _ r)
  match b, hb with
  | ⟨0, _⟩, _ => rfl
  | ⟨1, _⟩, hb => exact absurd rfl hb

/-! ## The piecewise affine map -/

/-- Entry by entry the map is the specification's: the comparison with the zero word chooses between the quotient by
the scale less one and the product with the scale less one. -/
theorem vals_apply (x : FVec Ideal S2097152 .f32) (r : Fin 2097152) :
    vals (F := Ideal) x (ix1 r) = Cert.Spec.margin (x (ix1 r)) := rfl

/-! ## The host's entry-by-entry operations read at an index -/

section HostOps
variable {s : Shape} {φ : FTy}

/-- The host's logarithm at an index is the logarithm of the entry ... -/
theorem hostLog_apply (v : FVec Ideal s φ) (i : s.Idx) : Host.log v i = Ideal.log (v i) := rfl
/-- ... its exponential the exponential of the entry ... -/
theorem hostExp_apply (v : FVec Ideal s φ) (i : s.Idx) : Host.exp v i = Ideal.exp (v i) := rfl
/-- ... and its negation the negation of the entry. -/
theorem hostNegf_apply (v : FVec Ideal s φ) (i : s.Idx) : Host.negf v i = -(v i) := rfl

end HostOps

/-- A sum over all the indices of a vector is the sum over its positions. -/
theorem sum_idx1 {M : Type*} [AddCommMonoid M] {n : ℕ} (f : (⟨1, ![n]⟩ : Shape).Idx → M) :
    ∑ i, f i = ∑ r : Fin n, f (ix1 r) :=
  (Equiv.sum_comp (idxEquiv1 (n := n)).symm f).symm

/-! ## Reductions along the lanes -/

section Lanes
variable {n m : ℕ}

/-- Row `r` with lane `k` put in is the index `(r, k)`. -/
theorem lift_lane (h : (⟨2, ![n, m]⟩ : Shape).Reduces [1] ⟨1, ![n]⟩) (r : Fin n) (k : Fin m) :
    h.lift (ix1 r) k = ix2 r k := by
  funext ax
  match ax with
  | ⟨0, _⟩ => exact Fin.ext rfl
  | ⟨1, _⟩ => exact Fin.ext rfl

/-- A sum along the lanes, at row `r`, is the starting value plus the sum of that row's entries. -/
theorem hostLaneSum_apply (h' : (⟨2, ![n, m]⟩ : Shape).ReducesTo [1] ⟨1, ![n]⟩)
    (h : (⟨2, ![n, m]⟩ : Shape).Reduces [1] ⟨1, ![n]⟩) {u : Shape} (hu : 0 < u.numel)
    (x : FVec Ideal ⟨2, ![n, m]⟩ .f32) (init : u.Idx → Ideal .f32) (r : Fin n) :
    Host.reduceAdd x init h' hu (ix1 r) = init (Shape.Idx.first hu) + ∑ k : Fin m, x (ix2 r k) :=
  (Ideal.hostReduceAdd_single h' h x (init (Shape.Idx.first hu)) (ix1 r)).trans
    (congrArg (init (Shape.Idx.first hu) + ·) (Finset.sum_congr rfl fun k _ => congrArg x (lift_lane h r k)))

/-- A maximum along the lanes, at row `r`, is `max` folded from the starting value over that row's entries. -/
theorem hostLaneMax_apply (h' : (⟨2, ![n, m]⟩ : Shape).ReducesTo [1] ⟨1, ![n]⟩)
    (h : (⟨2, ![n, m]⟩ : Shape).Reduces [1] ⟨1, ![n]⟩) {u : Shape} (hu : 0 < u.numel)
    (x : FVec Ideal ⟨2, ![n, m]⟩ .f32) (init : u.Idx → Ideal .f32) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  refine congrArg (Finset.fold max (init (Shape.Idx.first hu)) · (Finset.univ : Finset (Fin m))) ?_
  exact funext fun k => congrArg x (lift_lane h r k)

end Lanes

/-- The array of rows loses its lane axis to the vector of rows. -/
theorem reduces_lanes : S2097152x16.Reduces [1] S2097152 := by decide

/-- Adding to the zero word's value changes nothing. -/
theorem zero_add_eq (s : EReal) : Cert.Spec.zero + s = s := by rw [Cert.Spec.zero_eq, zero_add]

/-! ## The row's log-softmax -/

/-- The rows' largest entries carried along the lanes read, at `(r, j)`, row `r`'s largest entry: the fold of `max`
from minus infinity is at least minus infinity, so the further `max` with it changes nothing. -/
theorem rowMaxB_apply (D : FVec Ideal S2097152x16 .f32) (r : Fin 2097152) (j : Fin 16) :
    rowMaxB (F := Ideal) D (ix2 r j) = Cert.Spec.rowMax (fun k : Fin 16 => D (ix2 r k)) := by
  unfold rowMaxB
  refine (bcast_n1_nm_apply bcast_S2097152x1_S2097152x16_0_1 _ r j).trans ?_
  refine (bcast_n_n1_apply bcast_S2097152_S2097152x1_0 _ r (0 : Fin 1)).trans ?_
  refine (maximumf_apply _ _ (ix1 r)).trans ?_
  refine (congrArg (max Cert.Spec.negInf)
    (hostLaneMax_apply reducesTo_S2097152x16_S2097152_d1 reduces_lanes h_S_ D _ r)).trans ?_
  exact Cert.Spec.max_negInf_rowMax _

/-- The shifted rows read, at `(r, j)`, the entry less the row's largest entry. -/
theorem shifted_apply (D : FVec Ideal S2097152x16 .f32) (r : Fin 2097152) (j : Fin 16) :
    shifted (F := Ideal) D (ix2 r j) = D (ix2 r j) - Cert.Spec.rowMax (fun k : Fin 16 => D (ix2 r k)) := by
  unfold shifted
  exact (subf_apply _ _ (ix2 r j)).trans (congrArg (D (ix2 r j) - ·) (rowMaxB_apply D r j))

/-- The log-softmax of every row reads, at `(r, j)`, the specification's log-softmax of row `r` at `j`: the shifted
entry less the logarithm of the row's sum of exponentials of shifted entries, the sum started from zero. -/
theorem logSoftmax_apply (D : FVec Ideal S2097152x16 .f32) (r : Fin 2097152) (j : Fin 16) :
    logSoftmax (F := Ideal) D (ix2 r j) = Cert.Spec.logSoftmax (fun k : Fin 16 => D (ix2 r k)) j := by
  unfold RefDefs.logSoftmax Cert.Spec.logSoftmax
  refine (subf_apply _ _ (ix2 r j)).trans (congrArg₂ (· - ·) (shifted_apply D r j) ?_)
  refine (bcast_n1_nm_apply bcast_S2097152x1_S2097152x16_0_1 _ r j).trans ?_
  refine (hostLog_apply _ _).trans (congrArg Ideal.log ?_)
  refine (bcast_n_n1_apply bcast_S2097152_S2097152x1_0 _ r (0 : Fin 1)).trans ?_
  refine (hostLaneSum_apply reducesTo_S2097152x16_S2097152_d1 reduces_lanes h_S_ _ _ r).trans ?_
  refine (zero_add_eq _).trans ?_
  exact Finset.sum_congr rfl fun k _ => (hostExp_apply _ _).trans (congrArg Ideal.exp (shifted_apply D r k))

/-! ## The rows' values and their mean -/

/-- A row's smoothed negative log likelihood, given what the gather reads at the row's pair: minus the weighted
entry at the label plus the weighted sum of the row, the sum started from zero. -/
theorem rowNll_apply (Z : FVec Ideal S2097152x16 .f32) (Ls : IVec S2097152 32) (r : Fin 2097152) (p : EReal)
    (hp : pickAt (F := Ideal) Z (pairs RefDefs.iota Ls) (ix1 r) = p) :
    rowNll (F := Ideal) Z Ls (ix1 r)
      = -(Cert.Spec.wLabel * p + Cert.Spec.wAll * ∑ k : Fin 16, Z (ix2 r k)) := by
  unfold rowNll
  refine (hostNegf_apply _ _).trans (congrArg (fun t : EReal => -t) ?_)
  refine (addf_apply _ _ (ix1 r)).trans (congrArg₂ (· + ·) ?_ ?_)
  · exact (mulf_apply _ _ (ix1 r)).trans (congrArg (Cert.Spec.wLabel * ·) hp)
  · refine (mulf_apply _ _ (ix1 r)).trans (congrArg (Cert.Spec.wAll * ·) ?_)
    exact (hostLaneSum_apply reducesTo_S2097152x16_S2097152_d1 reduces_lanes h_S_ Z _ r).trans (zero_add_eq _)

/-- The loss is the sum of the rows' values, started from zero, divided by the word of the number of rows. A sum over
all of a vector's indices is the sum over its positions. -/
theorem loss_apply (D : FVec Ideal S2097152x16 .f32) (Ls : IVec S2097152 32) :
    loss (F := Ideal) D Ls ix0
      = Ideal.div (Cert.Spec.zero + ∑ r : Fin 2097152, rowNll (F := Ideal) (logSoftmax D) Ls (ix1 r))
          Cert.Spec.count := by
  unfold loss
  refine (hostDivf_apply _ _ ix0).trans (congrArg (Ideal.div · Cert.Spec.count) ?_)
  refine (hostReduceAdd_apply _ _ reducesTo_S2097152_S_d0 h_S_ ix0).trans ?_
  refine (Ideal.hostReduceAdd_total reducesTo_S2097152_S_d0 (fun b => b.elim0)
    (rowNll (F := Ideal) (logSoftmax D) Ls) _ ix0).trans ?_
  exact congrArg (Cert.Spec.zero + ·) (sum_idx1 (n := 2097152) (rowNll (F := Ideal) (logSoftmax D) Ls))

end Cert.ReferenceIdeal.RefRows

end
-- ==== Proof.Sorting.lean ====
/-
  The stable argsort of the label words, as a bijection of the rows.

  Sorting the pairs (label, position) by the label alone, stably, and keeping the positions gives at place `j` the
  position whose pair the sort puts there. That assignment of positions to places is a rearrangement of the positions:
  no position is used twice and every position is used. Each position is below 2^21, so as a 32-bit word it is not
  negative and is read back unchanged.
-/
import Idealize.ShloMosaic.Lib.SortFacts
import Idealize.ShloMosaic.Lib.ValueIdx
import Idealize.ShloMosaic.Lib.StableHlo.Predicate

noncomputable section

namespace Cert.Sorting

open Idealize.ShloMosaic Idealize.ShloMosaic.ValueIdx

/-- The shape of the label vector. -/
abbrev SB : Shape := ⟨1, ![2097152]⟩

/-- Whether the label at position `k` sorts strictly before the label at position `k'` (a signed comparison). -/
def before (L : SB.Idx → BitVec 32) (k k' : Fin 2097152) : Bool :=
  IntOp.cmpi .slt (L (Shape.Idx.ofFin k)) (L (Shape.Idx.ofFin k')) == 1#1

/-- The position the stable sort by label puts at place `r`. -/
def perm (L : SB.Idx → BitVec 32) : Fin 2097152 → Fin 2097152 := sortedFrom (before L)

theorem perm_bijective (L : SB.Idx → BitVec 32) : Function.Bijective (perm L) :=
  ⟨sortedFrom_injective _, sortedFrom_surjective _⟩

/-- The positions carried through a stable sort of (label, position) pairs by label: at place `j` the word of the
    position the sort puts there. -/
theorem argsort_apply_len {n : Nat} (L : (⟨1, ![n]⟩ : Shape).Idx → BitVec 32) (j : (⟨1, ![n]⟩ : Shape).Idx) :
    (Host.sort2 ⟨1, ![n]⟩ 0 (fun l r : BitVec 32 × BitVec 32 => IntOp.cmpi .slt l.1 r.1) L (iotaInDim ⟨1, ![n]⟩ 32 0)).2 j
      = BitVec.ofNat 32
          (sortedFrom (fun k k' : Fin n => IntOp.cmpi .slt (L (Shape.Idx.ofFin k)) (L (Shape.Idx.ofFin k')) == 1#1) (j 0)).val := by
  unfold Host.sort2
  simp
  rfl

theorem argsort_apply (L : SB.Idx → BitVec 32) (j : SB.Idx) :
    (Host.sort2 SB 0 (fun l r : BitVec 32 × BitVec 32 => IntOp.cmpi .slt l.1 r.1) L (iotaInDim SB 32 0)).2 j
      = BitVec.ofNat 32 (perm L (j 0)).val :=
  argsort_apply_len L j

/-- A position below 2^21, as a 32-bit word, is not negative. -/
theorem not_neg (p : Fin 2097152) : ¬ IntOp.cmpi .slt (BitVec.ofNat 32 p.val) 0#32 = 1#1 := by
  have hp := p.isLt
  rw [StableHlo.Predicate.slt_iff_toNat (by rw [BitVec.toNat_ofNat]; omega) (by decide)]
  simp

/-- ... and read back as a signed integer it is the position. -/
theorem toInt_pos (p : Fin 2097152) : (BitVec.ofNat 32 p.val).toInt = p.val :=
  StableHlo.Predicate.toInt_ofNat_small p.val (by have := p.isLt; omega)

end Cert.Sorting

end
-- ==== Proof.LibGatherPair.lean ====
import Idealize.ShloMosaic.PureOps
import Idealize.ShloMosaic.Lib.ValueIdx
noncomputable section

namespace Cert.LibGatherPair
open Idealize.ShloMosaic Idealize.ShloMosaic.ValueIdx

/-! ## Gathering single elements of a table by (row, column) pairs

A table `x : [N, C]` is read at `M` positions, the `r`-th of them named by the pair of index words
`idx (r, 0)`, `idx (r, 1)` of an array `idx : [M, 2]`. The dimension numbers collapse both axes of the table (every
slice is one element), let component 0 of a start index address axis 0 and component 1 address axis 1, and have
neither offset nor batching axes. Result element `r` is then the table at `(row, col)`, where `row` is the word
`idx (r, 0)` read as a signed integer and clamped into `[0, N − 1]`, and `col` is `idx (r, 1)` read the same way and
clamped into `[0, C − 1]`.

On each axis of the table the operand index is a clamped start plus a batching coordinate plus an offset coordinate.
Here the last two vanish on both axes (no batching axes; both axes collapsed), and the start on axis `a` is component
`a` of the `r`-th start index, clamped to the axis' extent less the slice size one. -/

section Pair
variable {α : Type}

/-- Axis 0 is in the list of both axes. -/
theorem zero_mem_both : (0 : Fin 2) ∈ ([0, 1] : List (Fin 2)) := by decide
/-- Axis 1 is in the list of both axes. -/
theorem one_mem_both : (1 : Fin 2) ∈ ([0, 1] : List (Fin 2)) := by decide

/-- The dimension numbers of an element gather by pairs, for a table `[N, C]`, start indices `[M, 2]` and a result
    `[M]`. -/
abbrev pairDims (N C M : Nat)
    (wf : GatherDims.WF ⟨2, ![N, C]⟩ ⟨2, ![M, 2]⟩ ⟨1, ![M]⟩ [] [0, 1] [] [0, 1] [] 1 ![1, 1]) :
    GatherDims ⟨2, ![N, C]⟩ ⟨2, ![M, 2]⟩ ⟨1, ![M]⟩ where
  offsetDims := []
  collapsedSliceDims := [0, 1]
  operandBatchingDims := []
  startIndicesBatchingDims := []
  startIndexMap := [0, 1]
  indexVectorDim := 1
  sliceSizes := ![1, 1]
  wf := wf

variable {N C M w : Nat}
  (wf : GatherDims.WF ⟨2, ![N, C]⟩ ⟨2, ![M, 2]⟩ ⟨1, ![M]⟩ [] [0, 1] [] [0, 1] [] 1 ![1, 1])

/-- No batching axes: the batching coordinate is zero on both table axes. -/
theorem pair_batch (j : (⟨1, ![M]⟩ : Shape).Idx) (a : Fin 2) : (pairDims N C M wf).batchCoord j a = 0 :=
  GatherDims.batchCoord_eq_zero _ _ _ List.not_mem_nil

/-- Axis 0 of the table is collapsed, hence not kept: its offset coordinate is zero. -/
theorem pair_off0 (j : (⟨1, ![M]⟩ : Shape).Idx) : (pairDims N C M wf).offCoord j 0 = 0 :=
  GatherDims.offCoord_eq_zero _ _ _ fun h =>
    ((GatherDims.mem_sKept _ _).1 h).1 zero_mem_both

/-- Axis 1 of the table is collapsed as well: its offset coordinate is zero. -/
theorem pair_off1 (j : (⟨1, ![M]⟩ : Shape).Idx) : (pairDims N C M wf).offCoord j 1 = 0 :=
  GatherDims.offCoord_eq_zero _ _ _ fun h =>
    ((GatherDims.mem_sKept _ _).1 h).1 one_mem_both

/-- Axis 0 is named first in the start index map, so its start is component 0 of the start index. That component is
    read at the start-indices position `(j 0, 0)` — the result's one coordinate, and 0 on the index vector's axis —,
    signed, and clamped to `N − 1`. -/
theorem pair_start0 (j : (⟨1, ![M]⟩ : Shape).Idx) (idx : IVec ⟨2, ![M, 2]⟩ w) :
    (pairDims N C M wf).start j idx 0 = min (idx (ix2 (j 0) (0 : Fin 2))).toInt.toNat (N - 1) := by
  unfold GatherDims.start
  rw [dif_pos zero_mem_both]
  have hsi : (pairDims N C M wf).siIdx j ⟨List.idxOf (0 : Fin 2) (pairDims N C M wf).startIndexMap,
      List.idxOf_lt_length_iff.2 zero_mem_both⟩ = ix2 (j 0) (0 : Fin 2) := by
    funext b
    refine Fin.ext ?_
    match b with
    | ⟨0, _⟩ => rfl
    | ⟨1, _⟩ => rfl
  rw [hsi]
  rfl

/-- Axis 1 is named second in the start index map, so its start is component 1 of the start index, read at the
    start-indices position `(j 0, 1)`, signed, and clamped to `C − 1`. -/
theorem pair_start1 (j : (⟨1, ![M]⟩ : Shape).Idx) (idx : IVec ⟨2, ![M, 2]⟩ w) :
    (pairDims N C M wf).start j idx 1 = min (idx (ix2 (j 0) (1 : Fin 2))).toInt.toNat (C - 1) := by
  unfold GatherDims.start
  rw [dif_pos one_mem_both]
  have hsi : (pairDims N C M wf).siIdx j ⟨List.idxOf (1 : Fin 2) (pairDims N C M wf).startIndexMap,
      List.idxOf_lt_length_iff.2 one_mem_both⟩ = ix2 (j 0) (1 : Fin 2) := by
    funext b
    refine Fin.ext ?_
    match b with
    | ⟨0, _⟩ => rfl
    | ⟨1, _⟩ => rfl
  rw [hsi]
  rfl

/-- The element gather with its dimension numbers written out, read at `r`. -/
theorem pair_apply (hN : 0 < N) (hC : 0 < C) (x : (⟨2, ![N, C]⟩ : Shape).Idx → α) (idx : IVec ⟨2, ![M, 2]⟩ w)
    (r : Fin M) :
    Host.gather (pairDims N C M wf) x idx (ix1 r)
      = x (ix2 (⟨min (idx (ix2 r (0 : Fin 2))).toInt.toNat (N - 1), by omega⟩ : Fin N)
          (⟨min (idx (ix2 r (1 : Fin 2))).toInt.toNat (C - 1), by omega⟩ : Fin C)) := by
  unfold Host.gather
  refine congrArg x (funext fun a => Fin.ext ?_)
  match a with
  | ⟨0, _⟩ =>
    show (pairDims N C M wf).start (ix1 r) idx 0 + (pairDims N C M wf).batchCoord (ix1 r) 0
      + (pairDims N C M wf).offCoord (ix1 r) 0 = _
    rw [pair_start0, pair_batch, pair_off0]
    rfl
  | ⟨1, _⟩ =>
    show (pairDims N C M wf).start (ix1 r) idx 1 + (pairDims N C M wf).batchCoord (ix1 r) 1
      + (pairDims N C M wf).offCoord (ix1 r) 1 = _
    rw [pair_start1, pair_batch, pair_off1]
    rfl

end Pair

/-- A gather that takes single elements of an `N × C` table, one per pair of index words (dimension numbers: no
    offset axes, collapsed axes 0 and 1, start index map `[0, 1]`, index vector axis 1, slice sizes `[1, 1]`, no
    batching axes), reads at `r` the table at `(row, col)`: the two words of the `r`-th pair read as signed integers
    and clamped into `[0, N − 1]` and `[0, C − 1]`. The dimension numbers are given by equations on the record's
    fields; once the fields are replaced by these literals the record is the one of `pair_apply`. -/
theorem gather_pair_apply {N C M w : Nat} {α : Type} (d : GatherDims ⟨2, ![N, C]⟩ ⟨2, ![M, 2]⟩ ⟨1, ![M]⟩)
    (h1 : d.offsetDims = []) (h2 : d.collapsedSliceDims = [0, 1]) (h3 : d.operandBatchingDims = [])
    (h4 : d.startIndicesBatchingDims = []) (h5 : d.startIndexMap = [0, 1]) (h6 : d.indexVectorDim = 1)
    (h7 : d.sliceSizes = ![1, 1]) (hN : 0 < N) (hC : 0 < C)
    (x : (⟨2, ![N, C]⟩ : Shape).Idx → α) (idx : IVec ⟨2, ![M, 2]⟩ w) (r : Fin M) :
    Host.gather d x idx (ix1 r)
      = x (ix2 (⟨min (idx (ix2 r (0 : Fin 2))).toInt.toNat (N - 1), by omega⟩ : Fin N)
          (⟨min (idx (ix2 r (1 : Fin 2))).toInt.toNat (C - 1), by omega⟩ : Fin C)) := by
  obtain ⟨od, cd, ob, sb, sm, iv, ss, wf⟩ := d
  simp only at h1 h2 h3 h4 h5 h6 h7
  subst h1 h2 h3 h4 h5 h6 h7
  exact pair_apply wf hN hC x idx r

/-- When both words of the `r`-th pair, read signed, already lie in range — the first in `[0, N)`, the second in
    `[0, C)` —, neither clamp does anything: the element read is the one the two words name. -/
theorem gather_pair_apply_of_inRange {N C M w : Nat} {α : Type} (d : GatherDims ⟨2, ![N, C]⟩ ⟨2, ![M, 2]⟩ ⟨1, ![M]⟩)
    (h1 : d.offsetDims = []) (h2 : d.collapsedSliceDims = [0, 1]) (h3 : d.operandBatchingDims = [])
    (h4 : d.startIndicesBatchingDims = []) (h5 : d.startIndexMap = [0, 1]) (h6 : d.indexVectorDim = 1)
    (h7 : d.sliceSizes = ![1, 1])
    (x : (⟨2, ![N, C]⟩ : Shape).Idx → α) (idx : IVec ⟨2, ![M, 2]⟩ w) (r : Fin M)
    (hr0 : 0 ≤ (idx (ix2 r (0 : Fin 2))).toInt) (hrlt : (idx (ix2 r (0 : Fin 2))).toInt < N)
    (hc0 : 0 ≤ (idx (ix2 r (1 : Fin 2))).toInt) (hclt : (idx (ix2 r (1 : Fin 2))).toInt < C) :
    Host.gather d x idx (ix1 r)
      = x (ix2 (⟨(idx (ix2 r (0 : Fin 2))).toInt.toNat, by omega⟩ : Fin N)
          (⟨(idx (ix2 r (1 : Fin 2))).toInt.toNat, by omega⟩ : Fin C)) := by
  have hN : 0 < N := by omega
  have hC : 0 < C := by omega
  rw [gather_pair_apply d h1 h2 h3 h4 h5 h6 h7 hN hC x idx r]
  have hm0 : min (idx (ix2 r (0 : Fin 2))).toInt.toNat (N - 1) = (idx (ix2 r (0 : Fin 2))).toInt.toNat :=
    Nat.min_eq_left (by omega)
  have hm1 : min (idx (ix2 r (1 : Fin 2))).toInt.toNat (C - 1) = (idx (ix2 r (1 : Fin 2))).toInt.toNat :=
    Nat.min_eq_left (by omega)
  exact congrArg x (congrArg₂ (fun a b => ix2 a b) (Fin.ext hm0) (Fin.ext hm1))
end Cert.LibGatherPair
end
-- ==== Proof.LibScatterSet.lean ====
/-
  A set-scatter whose updates land on pairwise distinct elements, read at an element.

  A scatter whose body returns the update ("set") is a fold of single-element overwrites, one per update element.
  When every update element has a landing element inside the operand and no two of them land on the same element,
  the order of the overwrites is immaterial: the result holds each update element at its landing element and the
  operand everywhere else.
-/
import Idealize.ShloMosaic.PureOps.ShapeOps

namespace Cert.LibScatterSet

open Idealize.ShloMosaic

/-- A fold of single-point overwrites `r ↦ r[p k := v k]` over a list of keys, when `p` is injective: the result
    holds `v k` at `p k` for every key `k` of the list, and the start value at every point no key of the list is
    sent to. By induction on the list from its last element: the last overwrite decides the point it writes, and at
    any other point the fold of the shorter list is read, where a key sent to the same point as the last one would be
    the last one. -/
theorem foldl_overwrite {ι κ α : Type} [DecidableEq ι] (p : κ → ι) (v : κ → α) (hp : Function.Injective p)
    (x : ι → α) (l : List κ) :
    (∀ k ∈ l, l.foldl (fun r k => fun i' => if i' = p k then v k else r i') x (p k) = v k) ∧
    (∀ i', (∀ k ∈ l, p k ≠ i') → l.foldl (fun r k => fun i' => if i' = p k then v k else r i') x i' = x i') := by
  induction l using List.reverseRecOn with
  | nil => exact ⟨fun k hk => absurd hk (List.not_mem_nil), fun i' _ => rfl⟩
  | append_singleton l n ih =>
    obtain ⟨ih1, ih2⟩ := ih
    refine ⟨fun k hk => ?_, fun i' hi' => ?_⟩
    · rw [List.foldl_append, List.foldl_cons, List.foldl_nil]
      by_cases hkn : p k = p n
      · rw [if_pos hkn, hp hkn]
      · rw [if_neg hkn]
        rcases List.mem_append.1 hk with h | h
        · exact ih1 k h
        · exact absurd (congrArg p (List.mem_singleton.1 h)) hkn
    · rw [List.foldl_append, List.foldl_cons, List.foldl_nil]
      have hn : i' ≠ p n := fun h => hi' n (List.mem_append_right _ (List.mem_singleton_self n)) h.symm
      rw [if_neg hn]
      exact ih2 i' fun k hk => hi' k (List.mem_append_left _ hk)

variable {s si u : Shape} {α : Type} {w : Nat}

/-- A set-scatter (`fun _ b => b`: the body returns the update) every one of whose update elements `j` lands inside
    the operand, at `land j`, no two on the same element: the result holds `upd j` at `land j`, and the operand's
    element at every index no update element lands on. -/
theorem scatter_set (d : ScatterDims s si u) (x : s.Idx → α) (idx : IVec si w) (upd : u.Idx → α)
    (land : u.Idx → s.Idx) (hland : ∀ j, d.resultIdx? j idx = some (land j)) (hinj : Function.Injective land) :
    (∀ j, Host.scatter d (fun _ b => b) x idx upd (land j) = upd j) ∧
    (∀ i', (∀ j, land j ≠ i') → Host.scatter d (fun _ b => b) x idx upd i' = x i') := by
  -- the scatter's fold is a fold of overwrites at `land` of the update element each position names
  have hfold : Host.scatter d (fun _ b => b) x idx upd
      = (List.finRange u.numel).foldl
          (fun r n => fun i' => if i' = land (u.rowMajor.symm n) then upd (u.rowMajor.symm n) else r i') x := by
    unfold Host.scatter
    congr 1
    funext r n
    rw [hland]
  have hp : Function.Injective fun n : Fin u.numel => land (u.rowMajor.symm n) :=
    hinj.comp u.rowMajor.symm.injective
  obtain ⟨h1, h2⟩ := foldl_overwrite (fun n : Fin u.numel => land (u.rowMajor.symm n))
    (fun n => upd (u.rowMajor.symm n)) hp x (List.finRange u.numel)
  rw [hfold]
  refine ⟨fun j => ?_, fun i' hi' => ?_⟩
  · have := h1 (u.rowMajor j) (List.mem_finRange _)
    simpa only [Equiv.symm_apply_apply] using this
  · exact h2 i' fun n _ => hi' _

end Cert.LibScatterSet
-- ==== Proof.LibScatterPair.lean ====
/-
  A set-scatter of one element per row of a table.

  Update `r` of `N` updates is written into an `N × C` table at the element its start index names, a pair
  (row word, column word). When the row word of update `r` is `r` itself and its column word is a column
  `colOf r` of the table, every update lands inside the table, update `r` alone lands in row `r`, and the result is
  the table with element `(r, colOf r)` of each row replaced by update `r`.
-/
import Idealize.ShloMosaic.PureOps
import Idealize.ShloMosaic.Lib.ValueIdx
import proofs.«424771_j14370960572484_1_alg».proof.Proof.LibScatterSet

namespace Cert.LibScatterPair
open Idealize.ShloMosaic Idealize.ShloMosaic.ValueIdx

/-! ## Where an update lands

The result index of update `j` is, on each table axis, a start (the start index's component for that axis, read
signed and not clamped) plus a window coordinate; the update is dropped unless that sum lies inside the table on
every axis. For these dimension numbers both table axes are inserted window axes, so the window coordinate is zero
on both, and component `a` of the start index addresses axis `a`. -/

section Pair

/-- Axis 0 is in the list of both axes. -/
theorem zero_mem_both : (0 : Fin 2) ∈ ([0, 1] : List (Fin 2)) := by decide
/-- Axis 1 is in the list of both axes. -/
theorem one_mem_both : (1 : Fin 2) ∈ ([0, 1] : List (Fin 2)) := by decide

/-- An axis in a list of axes is not among the axes the list leaves. -/
theorem not_mem_kept {s : Shape} (axes : List (Fin s.rank)) (a : Fin s.rank) (h : a ∈ axes) : a ∉ s.kept axes := by
  unfold Shape.kept
  intro hm
  simp only [List.mem_filter, decide_eq_true_eq] at hm
  exact hm.2 h

/-- The dimension numbers of an element scatter by pairs, for a table `[N, C]`, scatter indices `[N, 2]` and updates
    `[N]`. -/
abbrev pairDims (N C : Nat) (wf : ScatterDims.WF ⟨2, ![N, C]⟩ ⟨2, ![N, 2]⟩ ⟨1, ![N]⟩ [] [0, 1] [0, 1] 1) :
    ScatterDims ⟨2, ![N, C]⟩ ⟨2, ![N, 2]⟩ ⟨1, ![N]⟩ where
  updateWindowDims := []
  insertedWindowDims := [0, 1]
  scatterDimsToOperandDims := [0, 1]
  indexVectorDim := 1
  wf := wf

variable {N C w : Nat} (wf : ScatterDims.WF ⟨2, ![N, C]⟩ ⟨2, ![N, 2]⟩ ⟨1, ![N]⟩ [] [0, 1] [0, 1] 1)

/-- Axis 0 of the table is an inserted window axis, hence not kept: its window coordinate is zero. -/
theorem pair_window0 (j : (⟨1, ![N]⟩ : Shape).Idx) : (pairDims N C wf).window j 0 = 0 := by
  unfold ScatterDims.window
  exact dif_neg (not_mem_kept _ _ zero_mem_both)

/-- Axis 1 of the table is an inserted window axis as well: its window coordinate is zero. -/
theorem pair_window1 (j : (⟨1, ![N]⟩ : Shape).Idx) : (pairDims N C wf).window j 1 = 0 := by
  unfold ScatterDims.window
  exact dif_neg (not_mem_kept _ _ one_mem_both)

/-- Axis 0 is named first in the map from start-index components to table axes: its start is component 0 of the
    start index, read at the scatter-indices position `(j 0, 0)` as a signed integer. -/
theorem pair_start0 (j : (⟨1, ![N]⟩ : Shape).Idx) (idx : IVec ⟨2, ![N, 2]⟩ w) :
    (pairDims N C wf).start j idx 0 = (idx (ix2 (j 0) (0 : Fin 2))).toInt := by
  unfold ScatterDims.start
  rw [dif_pos zero_mem_both]
  have hsi : (pairDims N C wf).siIdx j ⟨List.idxOf (0 : Fin 2) (pairDims N C wf).scatterDimsToOperandDims,
      List.idxOf_lt_length_iff.2 zero_mem_both⟩ = ix2 (j 0) (0 : Fin 2) := by
    funext b
    refine Fin.ext ?_
    match b with
    | ⟨0, _⟩ => rfl
    | ⟨1, _⟩ => rfl
  rw [hsi]
  rfl

/-- Axis 1 is named second in that map: its start is component 1 of the start index, read at `(j 0, 1)`. -/
theorem pair_start1 (j : (⟨1, ![N]⟩ : Shape).Idx) (idx : IVec ⟨2, ![N, 2]⟩ w) :
    (pairDims N C wf).start j idx 1 = (idx (ix2 (j 0) (1 : Fin 2))).toInt := by
  unfold ScatterDims.start
  rw [dif_pos one_mem_both]
  have hsi : (pairDims N C wf).siIdx j ⟨List.idxOf (1 : Fin 2) (pairDims N C wf).scatterDimsToOperandDims,
      List.idxOf_lt_length_iff.2 one_mem_both⟩ = ix2 (j 0) (1 : Fin 2) := by
    funext b
    refine Fin.ext ?_
    match b with
    | ⟨0, _⟩ => rfl
    | ⟨1, _⟩ => rfl
  rw [hsi]
  rfl

/-- When the row word of every update is the update's own position and its column word is a column of the table,
    update `j` lands inside the table, at row `j 0` and column `colOf (j 0)`. -/
theorem pair_land (idx : IVec ⟨2, ![N, 2]⟩ w) (colOf : Fin N → Fin C)
    (hrow : ∀ r : Fin N, (idx (ix2 r (0 : Fin 2))).toInt = ((r.val : ℕ) : ℤ))
    (hcol : ∀ r : Fin N, (idx (ix2 r (1 : Fin 2))).toInt = (((colOf r).val : ℕ) : ℤ))
    (j : (⟨1, ![N]⟩ : Shape).Idx) :
    (pairDims N C wf).resultIdx? j idx = some (ix2 (j 0) (colOf (j 0))) := by
  have s0 : (pairDims N C wf).start j idx 0 + ((pairDims N C wf).window j 0 : ℤ) = (((j 0).val : ℕ) : ℤ) := by
    rw [pair_start0, pair_window0]
    exact (Int.add_zero _).trans (hrow (j 0))
  have s1 : (pairDims N C wf).start j idx 1 + ((pairDims N C wf).window j 1 : ℤ)
      = (((colOf (j 0)).val : ℕ) : ℤ) := by
    rw [pair_start1, pair_window1]
    exact (Int.add_zero _).trans (hcol (j 0))
  have hin : ∀ a : Fin 2, 0 ≤ (pairDims N C wf).start j idx a + ((pairDims N C wf).window j a : ℤ)
      ∧ (pairDims N C wf).start j idx a + ((pairDims N C wf).window j a : ℤ)
        < (((⟨2, ![N, C]⟩ : Shape).size a : ℕ) : ℤ) := by
    intro a
    match a with
    | ⟨0, _⟩ =>
      show 0 ≤ (pairDims N C wf).start j idx 0 + ((pairDims N C wf).window j 0 : ℤ)
        ∧ (pairDims N C wf).start j idx 0 + ((pairDims N C wf).window j 0 : ℤ) < ((N : ℕ) : ℤ)
      rw [s0]
      have := (j 0).isLt
      exact ⟨Int.natCast_nonneg _, Int.ofNat_lt.2 this⟩
    | ⟨1, _⟩ =>
      show 0 ≤ (pairDims N C wf).start j idx 1 + ((pairDims N C wf).window j 1 : ℤ)
        ∧ (pairDims N C wf).start j idx 1 + ((pairDims N C wf).window j 1 : ℤ) < ((C : ℕ) : ℤ)
      rw [s1]
      exact ⟨Int.natCast_nonneg _, Int.ofNat_lt.2 (colOf (j 0)).isLt⟩
  unfold ScatterDims.resultIdx?
  rw [dif_pos hin]
  refine congrArg some (funext fun a => Fin.ext ?_)
  match a with
  | ⟨0, _⟩ =>
    show ((pairDims N C wf).start j idx 0 + ((pairDims N C wf).window j 0 : ℤ)).toNat = (j 0).val
    rw [s0]
    exact Int.toNat_natCast _
  | ⟨1, _⟩ =>
    show ((pairDims N C wf).start j idx 1 + ((pairDims N C wf).window j 1 : ℤ)).toNat = (colOf (j 0)).val
    rw [s1]
    exact Int.toNat_natCast _

end Pair

/-- The landing element of update `j`: its own row, at the column chosen for that row. -/
abbrev land {N C : Nat} (colOf : Fin N → Fin C) (j : (⟨1, ![N]⟩ : Shape).Idx) : (⟨2, ![N, C]⟩ : Shape).Idx :=
  ix2 (j 0) (colOf (j 0))

/-- Two updates that land on the same element are the same update: the landing element's row is the update's
    position. -/
theorem land_injective {N C : Nat} (colOf : Fin N → Fin C) : Function.Injective (land colOf) := by
  intro j j' h
  have h0 : j 0 = j' 0 := congrFun h 0
  rw [eq_ix1 j, eq_ix1 j', h0]

/-- The landing element of an update with the dimension numbers given by equations on the record's fields. -/
theorem resultIdx?_rows {N C w : Nat} (d : ScatterDims ⟨2, ![N, C]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (idx : IVec ⟨2, ![N, 2]⟩ w) (colOf : Fin N → Fin C)
    (hrow : ∀ r : Fin N, (idx (ix2 r (0 : Fin 2))).toInt = ((r.val : ℕ) : ℤ))
    (hcol : ∀ r : Fin N, (idx (ix2 r (1 : Fin 2))).toInt = (((colOf r).val : ℕ) : ℤ))
    (j : (⟨1, ![N]⟩ : Shape).Idx) :
    d.resultIdx? j idx = some (land colOf j) := by
  obtain ⟨uw, iw, sd, iv, wf⟩ := d
  simp only at h1 h2 h3 h4
  subst h1 h2 h3 h4
  exact pair_land wf idx colOf hrow hcol j

/-- A set-scatter into an `N × C` table of `N` updates, one per row (dimension numbers: no update window axes,
    inserted window axes 0 and 1, start-index components going to axes 0 and 1, index vector axis 1), where the
    start index of update `r` is the pair (`r`, `colOf r`): the result is the table with element `(i, colOf i)` of
    every row `i` replaced by update `i`, and every other element kept. At `(i, colOf i)` the landing element of
    update `i` is read; at `(i, j)` with `j` another column no update lands, because one landing there would be in
    row `i`, hence update `i`, whose column is `colOf i`. -/
theorem scatter_rows_set {N C w : Nat} {α : Type} (d : ScatterDims ⟨2, ![N, C]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![N, C]⟩ : Shape).Idx → α) (idx : IVec ⟨2, ![N, 2]⟩ w)
    (upd : (⟨1, ![N]⟩ : Shape).Idx → α) (colOf : Fin N → Fin C)
    (hrow : ∀ r : Fin N, (idx (ix2 r (0 : Fin 2))).toInt = ((r.val : ℕ) : ℤ))
    (hcol : ∀ r : Fin N, (idx (ix2 r (1 : Fin 2))).toInt = (((colOf r).val : ℕ) : ℤ))
    (i : Fin N) (j : Fin C) :
    Host.scatter d (fun _ b => b) x idx upd (ix2 i j) = if j = colOf i then upd (ix1 i) else x (ix2 i j) := by
  obtain ⟨hat, hoff⟩ := Cert.LibScatterSet.scatter_set d x idx upd (land colOf)
    (resultIdx?_rows d h1 h2 h3 h4 idx colOf hrow hcol) (land_injective colOf)
  by_cases hj : j = colOf i
  · rw [if_pos hj, hj]
    exact hat (ix1 i)
  · rw [if_neg hj]
    refine hoff (ix2 i j) fun k hk => hj ?_
    have hk0 : k 0 = i := congrFun hk 0
    have hk1 : colOf (k 0) = j := congrFun hk 1
    rw [← hk1, hk0]

end Cert.LibScatterPair
-- ==== Proof.LibGatherRows.lean ====
import Idealize.ShloMosaic.PureOps
import Idealize.ShloMosaic.Lib.ValueIdx
noncomputable section

namespace Cert.LibGatherRows
open Idealize.ShloMosaic Idealize.ShloMosaic.ValueIdx

/-! ## Gathering whole rows of a table

A table `x : [N, C]` is gathered by a column of index words `idx : [M, 1]`: the dimension numbers collapse the
table's axis 0 and let the one component of each start index address it, keep the table's axis 1 whole as the
result's offset axis 1, and have no batching axes. Result element `(r, k)` is then the table at `(row, k)`, where
`row` is the `r`-th index word read as a signed integer and clamped into `[0, N − 1]`.

The operand index of a gather is, on each operand axis, a clamped start plus a batching coordinate plus an offset
coordinate. For these dimension numbers the three summands are computed one by one below: on axis 0 the start is the
clamped index word and the other two vanish (the axis is collapsed); on axis 1 the start and the batching coordinate
vanish (the axis is not addressed by the start index) and the offset coordinate is the result's column. -/

section Rows
variable {α : Type}

/-- The dimension numbers of a row gather, for a table `[N, C]`, start indices `[M, 1]` and a result `[M, C]`. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat}
  (wf : GatherDims.WF ⟨2, ![N, C]⟩ ⟨2, ![M, 1]⟩ ⟨2, ![M, C]⟩ [1] [0] [] [0] [] 1 ![1, C])

/-- There are no batching axes, so the batching coordinate is zero on both table axes. -/
theorem rows_batch (j : (⟨2, ![M, C]⟩ : Shape).Idx) (a : Fin 2) : (rowsDims N M C wf).batchCoord j a = 0 :=
  GatherDims.batchCoord_eq_zero _ _ _ List.not_mem_nil

/-- Axis 0 of the table is collapsed: it is not among the kept axes, so its offset coordinate is zero. -/
theorem rows_off0 (j : (⟨2, ![M, C]⟩ : Shape).Idx) : (rowsDims N M C wf).offCoord j 0 = 0 :=
  GatherDims.offCoord_eq_zero _ _ _ fun h => ((GatherDims.mem_sKept _ _).1 h).1 (List.mem_singleton.2 rfl)

/-- Axis 1 of the table is not addressed by the start index, so the slice starts at column zero. -/
theorem rows_start1 (j : (⟨2, ![M, C]⟩ : Shape).Idx) (idx : IVec ⟨2, ![M, 1]⟩ w) :
    (rowsDims N M C wf).start j idx 1 = 0 := by
  unfold GatherDims.start
  exact dif_neg (show (1 : Fin 2) ∉ [0] by decide)

/-- Axis 1 is the only kept axis of the table, in position 0, and the result's offset axis in that position is its
    axis 1: the offset coordinate is the result's column. -/
theorem rows_off1 (j : (⟨2, ![M, C]⟩ : Shape).Idx) : (rowsDims N M C wf).offCoord j 1 = (j 1).val := by
  unfold GatherDims.offCoord
  rw [dif_pos ((GatherDims.mem_sKept _ _).2 ⟨show (1 : Fin 2) ∉ [0] by decide, List.not_mem_nil⟩)]
  rfl

/-- Axis 0 is component 0 of the start index. That component is read at the start-indices position
    `(j 0, 0)` — the result's batch coordinate, and 0 on the index vector's axis —, signed, and clamped to
    `N − 1` (the table's extent less the slice size 1). -/
theorem rows_start0 (j : (⟨2, ![M, C]⟩ : Shape).Idx) (idx : IVec ⟨2, ![M, 1]⟩ w) :
    (rowsDims N M C wf).start j idx 0 = min (idx (ix2 (j 0) (0 : Fin 1))).toInt.toNat (N - 1) := by
  unfold GatherDims.start
  rw [dif_pos (List.mem_singleton.2 rfl)]
  have hsi : (rowsDims N M C wf).siIdx j ⟨List.idxOf (0 : Fin 2) (rowsDims N M C wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The row gather with its dimension numbers written out, read at `(r, k)`. -/
theorem rows_apply (hN : 0 < N) (x : (⟨2, ![N, C]⟩ : Shape).Idx → α) (idx : IVec ⟨2, ![M, 1]⟩ w)
    (r : Fin M) (k : Fin C) :
    Host.gather (rowsDims N M C wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowsDims N M C wf).start (ix2 r k) idx 0 + (rowsDims N M C wf).batchCoord (ix2 r k) 0
      + (rowsDims N M C wf).offCoord (ix2 r k) 0 = _
    rw [rows_start0, rows_batch, rows_off0]
    rfl
  | ⟨1, _⟩ =>
    show (rowsDims N M C wf).start (ix2 r k) idx 1 + (rowsDims N M C wf).batchCoord (ix2 r k) 1
      + (rowsDims N M C wf).offCoord (ix2 r k) 1 = _
    rw [rows_start1, rows_batch, rows_off1]
    show 0 + 0 + k.val = k.val
    omega

end Rows

/-- A gather that takes whole rows of an `N × C` table, one row per index word (dimension numbers: offset axis 1,
    collapsed axis 0, start index map `[0]`, index vector axis 1, slice sizes `[1, C]`, no batching axes), reads at
    `(r, k)` the table at `(row, k)`, where `row` is the `r`-th index word read as a signed integer and clamped into
    `[0, N − 1]`. The dimension numbers are given by equations on the record's fields; once the fields are replaced by
    these literals the record is the one of `rows_apply`. -/
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  exact rows_apply wf hN x idx r k

/-- When the `r`-th index word, read signed, already lies in `[0, N)`, the clamp does nothing: the row is the word
    itself. -/
theorem gather_rows_apply_of_inRange {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → α) (idx : IVec ⟨2, ![M, 1]⟩ w) (r : Fin M) (k : Fin C)
    (h0 : 0 ≤ (idx (ix2 r (0 : Fin 1))).toInt) (hlt : (idx (ix2 r (0 : Fin 1))).toInt < N) :
    Host.gather d x idx (ix2 r k)
      = x (ix2 (⟨(idx (ix2 r (0 : Fin 1))).toInt.toNat, by omega⟩ : Fin N) k) := by
  have hN : 0 < N := by omega
  rw [gather_rows_apply d h1 h2 h3 h4 h5 h6 h7 hN x idx r k]
  have hm : min (idx (ix2 r (0 : Fin 1))).toInt.toNat (N - 1) = (idx (ix2 r (0 : Fin 1))).toInt.toNat :=
    Nat.min_eq_left (by omega)
  exact congrArg x (congrArg (fun a => ix2 a k) (Fin.ext hm))
end Cert.LibGatherRows
end
-- ==== Proof.LibGatherVec.lean ====
import Idealize.ShloMosaic.PureOps
import Idealize.ShloMosaic.Lib.ValueIdx
noncomputable section

namespace Cert.LibGatherVec
open Idealize.ShloMosaic Idealize.ShloMosaic.ValueIdx

/-! ## Gathering entries of a one-axis table

A table `x : [N]` is gathered by a column of index words `idx : [M, 1]`: the dimension numbers collapse the
table's only axis and let the one component of each start index address it; the result has no offset axis and
there are no batching axes. Result element `r` is then the table at `row`, where `row` is the `r`-th index
word read as a signed integer and clamped into `[0, N − 1]`.

The operand index of a gather is, on each operand axis, a clamped start plus a batching coordinate plus an offset
coordinate. For these dimension numbers the three summands on the table's axis are computed one by one below: the
start is the clamped index word and the other two vanish (the axis is collapsed, and no axis is a batching one). -/

section Vec
variable {α : Type}

/-- The dimension numbers of an entry gather, for a table `[N]`, start indices `[M, 1]` and a result `[M]`. -/
abbrev vecDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat}
  (wf : GatherDims.WF ⟨1, ![N]⟩ ⟨2, ![M, 1]⟩ ⟨1, ![M]⟩ [] [0] [] [0] [] 1 ![1])

/-- There are no batching axes, so the batching coordinate is zero on the table's axis. -/
theorem vec_batch (j : (⟨1, ![M]⟩ : Shape).Idx) (a : Fin 1) : (vecDims N M wf).batchCoord j a = 0 :=
  GatherDims.batchCoord_eq_zero _ _ _ List.not_mem_nil

/-- The table's axis is collapsed: it is not among the kept axes, so its offset coordinate is zero. -/
theorem vec_off0 (j : (⟨1, ![M]⟩ : Shape).Idx) : (vecDims N M wf).offCoord j 0 = 0 :=
  GatherDims.offCoord_eq_zero _ _ _ fun h => ((GatherDims.mem_sKept _ _).1 h).1 (List.mem_singleton.2 rfl)

/-- The table's axis is component 0 of the start index. That component is read at the start-indices position
    `(j 0, 0)` — the result's only coordinate, and 0 on the index vector's axis —, signed, and clamped to
    `N − 1` (the table's extent less the slice size 1). -/
theorem vec_start0 (j : (⟨1, ![M]⟩ : Shape).Idx) (idx : IVec ⟨2, ![M, 1]⟩ w) :
    (vecDims N M wf).start j idx 0 = min (idx (ix2 (j 0) (0 : Fin 1))).toInt.toNat (N - 1) := by
  unfold GatherDims.start
  rw [dif_pos (List.mem_singleton.2 rfl)]
  have hsi : (vecDims N M wf).siIdx j ⟨List.idxOf (0 : Fin 1) (vecDims N M wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The entry gather with its dimension numbers written out, read at `r`. -/
theorem vec_apply (hN : 0 < N) (x : (⟨1, ![N]⟩ : Shape).Idx → α) (idx : IVec ⟨2, ![M, 1]⟩ w) (r : Fin M) :
    Host.gather (vecDims N M wf) x idx (ix1 r)
      = x (ix1 (⟨min (idx (ix2 r (0 : Fin 1))).toInt.toNat (N - 1), by omega⟩ : Fin N)) := by
  unfold Host.gather
  refine congrArg x (funext fun a => Fin.ext ?_)
  match a with
  | ⟨0, _⟩ =>
    show (vecDims N M wf).start (ix1 r) idx 0 + (vecDims N M wf).batchCoord (ix1 r) 0
      + (vecDims N M wf).offCoord (ix1 r) 0 = _
    rw [vec_start0, vec_batch, vec_off0]
    rfl

end Vec

/-- A gather that takes single entries of a one-axis table of `N` entries, one entry per index word (dimension
    numbers: no offset axis, collapsed axis 0, start index map `[0]`, index vector axis 1, slice sizes `[1]`, no
    batching axes), reads at `r` the table at `row`, where `row` is the `r`-th index word read as a signed integer
    and clamped into `[0, N − 1]`. The dimension numbers are given by equations on the record's fields; once the
    fields are replaced by these literals the record is the one of `vec_apply`. -/
theorem gather_vec_apply {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1]) (hN : 0 < N)
    (x : (⟨1, ![N]⟩ : Shape).Idx → α) (idx : IVec ⟨2, ![M, 1]⟩ w) (r : Fin M) :
    Host.gather d x idx (ix1 r)
      = x (ix1 (⟨min (idx (ix2 r (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact vec_apply wf hN x idx r

/-- When the `r`-th index word, read signed, already lies in `[0, N)`, the clamp does nothing: the entry is the
    word itself. -/
theorem gather_vec_apply_of_inRange {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (⟨1, ![N]⟩ : Shape).Idx → α) (idx : IVec ⟨2, ![M, 1]⟩ w) (r : Fin M)
    (h0 : 0 ≤ (idx (ix2 r (0 : Fin 1))).toInt) (hlt : (idx (ix2 r (0 : Fin 1))).toInt < N) :
    Host.gather d x idx (ix1 r)
      = x (ix1 (⟨(idx (ix2 r (0 : Fin 1))).toInt.toNat, by omega⟩ : Fin N)) := by
  have hN : 0 < N := by omega
  rw [gather_vec_apply d h1 h2 h3 h4 h5 h6 h7 hN x idx r]
  have hm : min (idx (ix2 r (0 : Fin 1))).toInt.toNat (N - 1) = (idx (ix2 r (0 : Fin 1))).toInt.toNat :=
    Nat.min_eq_left (by omega)
  exact congrArg x (congrArg (fun a => ix1 a) (Fin.ext hm))
end Cert.LibGatherVec
end
-- ==== Proof.RefSpec.lean ====
/-
  The reference's stages as the common value.

  With every label among the sixteen positions nothing wraps or clamps: the start pair of row `r` is (r, label r); the
  gather reads the row's logit at its label; the scatter puts its image back there and nowhere else, so the scattered
  array is the specification's data array. The stable argsort is a bijection `σ` of the rows: sorted row `r` is row
  `σ r` and sorted label `r` is label `σ r`, so row `r`'s loss in sorted order is row `σ r`'s loss, and the sum over
  all rows does not see the order.
-/
import proofs.«424771_j14370960572484_1_alg».proof.Proof.RefDefs
import proofs.«424771_j14370960572484_1_alg».proof.Proof.RefRows
import proofs.«424771_j14370960572484_1_alg».proof.Proof.SpecArrays
import proofs.«424771_j14370960572484_1_alg».proof.Proof.Sorting
import proofs.«424771_j14370960572484_1_alg».proof.Proof.LibGatherPair
import proofs.«424771_j14370960572484_1_alg».proof.Proof.LibScatterPair
import proofs.«424771_j14370960572484_1_alg».proof.Proof.LibGatherRows
import proofs.«424771_j14370960572484_1_alg».proof.Proof.LibGatherVec
import Idealize.ShloMosaic.Lib.StableHlo.Predicate

noncomputable section

namespace Cert.ReferenceIdeal.RefSpec

open Cert.ReferenceIdeal Cert.ReferenceIdeal.Gen Cert.ReferenceIdeal.RefDefs Cert.ReferenceIdeal.RefRows
open Idealize.ShloMosaic Idealize.ShloMosaic.ValueIdx

/-- A gather of whole rows whose `r`-th index word, read signed, is the position `p`: result row `r` is row `p`. -/
theorem rows_at {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (D : (⟨2, ![N, C]⟩ : Shape).Idx → α) (idx : IVec ⟨2, ![M, 1]⟩ w) (r : Fin M) (k : Fin C) (p : Fin N)
    (hp : (idx (ix2 r (0 : Fin 1))).toInt = ((p.val : ℕ) : ℤ)) :
    Host.gather d D idx (ix2 r k) = D (ix2 p k) := by
  have hlt := p.isLt
  rw [Cert.LibGatherRows.gather_rows_apply_of_inRange d h1 h2 h3 h4 h5 h6 h7 D idx r k (by omega) (by omega)]
  refine congrArg D (funext fun a => ?_)
  match a with
  | ⟨0, _⟩ => exact Fin.ext (by show (idx (ix2 r (0 : Fin 1))).toInt.toNat = p.val; omega)
  | ⟨1, _⟩ => rfl

/-- The same for a gather of single entries of a one-axis table. -/
theorem entry_at {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (⟨1, ![N]⟩ : Shape).Idx → α) (idx : IVec ⟨2, ![M, 1]⟩ w) (r : Fin M) (p : Fin N)
    (hp : (idx (ix2 r (0 : Fin 1))).toInt = ((p.val : ℕ) : ℤ)) :
    Host.gather d x idx (ix1 r) = x (ix1 p) := by
  have hlt := p.isLt
  rw [Cert.LibGatherVec.gather_vec_apply_of_inRange d h1 h2 h3 h4 h5 h6 h7 x idx r (by omega) (by omega)]
  refine congrArg x (funext fun a => ?_)
  match a with
  | ⟨0, _⟩ => exact Fin.ext (by show (idx (ix2 r (0 : Fin 1))).toInt.toNat = p.val; omega)

variable (L : IVec S2097152 32)

/-- A label word among the sixteen positions is not negative. -/
theorem label_not_neg (hL : Cert.Spec.InRange L) (r : Fin 2097152) : ¬ IntOp.cmpi .slt (L (ix1 r)) 0#32 = 1#1 := by
  have h := hL r
  rw [StableHlo.Predicate.slt_iff_toNat (by omega) (by decide)]
  simp

/-- ... and read signed it is the position. -/
theorem label_toInt (hL : Cert.Spec.InRange L) (r : Fin 2097152) : (L (ix1 r)).toInt = ((Cert.Spec.lbl L hL r).val : ℤ) := by
  have h := hL r
  rw [StableHlo.Predicate.toInt_eq_toNat_of_lt (by omega)]
  rfl

/-- The position `r` as a word is not negative, and read signed it is `r`. -/
theorem iota_apply (r : Fin 2097152) : (RefDefs.iota : IVec S2097152 32) (ix1 r) = BitVec.ofNat 32 r.val := rfl

/-- Row `r`'s start pair is (r, label r). -/
theorem pair0 (r : Fin 2097152) : (pairs RefDefs.iota L (ix2 r (0 : Fin 2))).toInt = (r.val : ℤ) := by
  rw [pairs_apply0, wrap_apply_of_nonneg _ _ _ (by rw [iota_apply]; exact Cert.Sorting.not_neg r), iota_apply]
  exact Cert.Sorting.toInt_pos r

theorem pair1 (hL : Cert.Spec.InRange L) (r : Fin 2097152) : (pairs RefDefs.iota L (ix2 r (1 : Fin 2))).toInt = ((Cert.Spec.lbl L hL r).val : ℤ) := by
  rw [pairs_apply1, wrap_apply_of_nonneg _ _ _ (label_not_neg L hL r)]
  exact label_toInt L hL r

/-- The gather at the start pairs reads each row at its label. -/
theorem pick_apply (hL : Cert.Spec.InRange L) (Z : FVec Ideal S2097152x16 .f32) (r : Fin 2097152) :
    pickAt (F := Ideal) Z (pairs RefDefs.iota L) (ix1 r) = Z (ix2 r (Cert.Spec.lbl L hL r)) := by
  have h0 := pair0 L r
  have h1 := pair1 L hL r
  have hr := r.isLt
  have hl := (Cert.Spec.lbl L hL r).isLt
  unfold pickAt
  rw [Cert.LibGatherPair.gather_pair_apply_of_inRange gather_S2097152x16_S2097152x2_S2097152_n_01_n_n_01_1_11
    rfl rfl rfl rfl rfl rfl rfl Z (pairs RefDefs.iota L) r (by omega) (by omega) (by omega) (by omega)]
  refine congrArg Z ?_
  have e0 : (⟨(pairs RefDefs.iota L (ix2 r (0 : Fin 2))).toInt.toNat, by omega⟩ : Fin 2097152) = r := Fin.ext (by show (pairs RefDefs.iota L (ix2 r (0 : Fin 2))).toInt.toNat = r.val; omega)
  have e1 : (⟨(pairs RefDefs.iota L (ix2 r (1 : Fin 2))).toInt.toNat, by omega⟩ : Fin 16) = Cert.Spec.lbl L hL r := Fin.ext (by show (pairs RefDefs.iota L (ix2 r (1 : Fin 2))).toInt.toNat = (Cert.Spec.lbl L hL r).val; omega)
  rw [e0, e1]

variable (X : FVec Ideal S2097152x16 .f32)

/-- The scattered array is the specification's data array. -/
theorem scattered_eq (hL : Cert.Spec.InRange L) : scattered (F := Ideal) X L = Cert.Spec.dataOf X L hL := by
  funext p
  obtain ⟨i, j, rfl⟩ : ∃ (i : Fin 2097152) (j : Fin 16), p = ix2 i j := ⟨p 0, p 1, eq_ix2 p⟩
  unfold scattered
  rw [Cert.LibScatterPair.scatter_rows_set scatter_S2097152x16_S2097152x2_S2097152_n_01_01_1 rfl rfl rfl rfl X
    (pairs RefDefs.iota L) (vals (pickAt X (pairs RefDefs.iota L))) (Cert.Spec.lbl L hL) (pair0 L) (pair1 L hL) i j]
  show _ = Cert.Spec.insert (Cert.Spec.rowOf X i) (Cert.Spec.lbl L hL i) j
  unfold Cert.Spec.insert
  by_cases hj : j = Cert.Spec.lbl L hL i
  · rw [if_pos hj, if_pos hj, vals_apply, pick_apply L hL X i]; rfl
  · rw [if_neg hj, if_neg hj]; rfl

/-- The argsort's entry at place `r`, wrapped and read signed, is the position the sort puts there. -/
theorem sortCol_toInt (r : Fin 2097152) :
    (col (wrap (order L) 2097152#32) (ix2 r (0 : Fin 1))).toInt = ((Cert.Sorting.perm L r).val : ℤ) := by
  have ho : order L (ix1 r) = BitVec.ofNat 32 (Cert.Sorting.perm L r).val := Cert.Sorting.argsort_apply L (ix1 r)
  rw [col_apply, wrap_apply_of_nonneg _ _ _ (by rw [ho]; exact Cert.Sorting.not_neg _), ho]
  exact Cert.Sorting.toInt_pos _

/-- Sorted row `r` is row `σ r`; sorted label `r` is label `σ r`. -/
theorem sortedRows_apply (D : FVec Ideal S2097152x16 .f32) (r : Fin 2097152) (k : Fin 16) :
    sortedRows (F := Ideal) D L (ix2 r k) = D (ix2 (Cert.Sorting.perm L r) k) :=
  rows_at gather_S2097152x16_S2097152x1_S2097152x16_1_0_n_n_0_1_116 rfl rfl rfl rfl rfl rfl rfl D
    (col (wrap (order L) 2097152#32)) r k (Cert.Sorting.perm L r) (sortCol_toInt L r)

theorem sortedLabels_apply (r : Fin 2097152) :
    sortedLabels L (ix1 r) = L (ix1 (Cert.Sorting.perm L r)) :=
  entry_at gather_S2097152_S2097152x1_S2097152_n_0_n_n_0_1_1 rfl rfl rfl rfl rfl rfl rfl L
    (col (wrap (order L) 2097152#32)) r (Cert.Sorting.perm L r) (sortCol_toInt L r)

/-- The sorted labels are among the sixteen positions too. -/
theorem sorted_inRange (hL : Cert.Spec.InRange L) : Cert.Spec.InRange (sortedLabels L) := fun r => by
  rw [sortedLabels_apply]; exact hL _

theorem sorted_lbl (hL : Cert.Spec.InRange L) (r : Fin 2097152) :
    Cert.Spec.lbl (sortedLabels L) (sorted_inRange L hL) r = Cert.Spec.lbl L hL (Cert.Sorting.perm L r) :=
  Fin.ext (by show (sortedLabels L (ix1 r)).toNat = (L (ix1 (Cert.Sorting.perm L r))).toNat; rw [sortedLabels_apply])

/-- The loss of the sorted rows of the data array at the sorted labels is the specification's mean loss. -/
theorem loss_eq (hL : Cert.Spec.InRange L) :
    loss (F := Ideal) (sortedRows (Cert.Spec.dataOf X L hL) L) (sortedLabels L) = fun _ => Cert.Spec.lossOf X L hL := by
  funext i
  rw [eq_ix0 i, loss_apply]
  unfold Cert.Spec.lossOf
  refine congrArg (fun s => Ideal.div (Cert.Spec.zero + s) Cert.Spec.count) ?_
  rw [← Cert.Spec.sum_perm (Cert.Sorting.perm L) (Cert.Sorting.perm_bijective L) (Cert.Spec.rowLossOf X L hL)]
  refine Finset.sum_congr rfl fun r _ => ?_
  rw [rowNll_apply _ _ r _ (pick_apply (sortedLabels L) (sorted_inRange L hL) _ r), sorted_lbl L hL r]
  unfold Cert.Spec.rowLossOf Cert.Spec.nll
  have hrow : (fun k : Fin 16 => sortedRows (F := Ideal) (Cert.Spec.dataOf X L hL) L (ix2 r k))
      = Cert.Spec.insert (Cert.Spec.rowOf X (Cert.Sorting.perm L r)) (Cert.Spec.lbl L hL (Cert.Sorting.perm L r)) :=
    funext fun k => sortedRows_apply L _ r k
  simp only [logSoftmax_apply, hrow]

end Cert.ReferenceIdeal.RefSpec

end
-- ==== Proof.SpecSorted.lean ====
/-
  The sorted results, free of either program: sorted row `r` is row `σ r` and sorted label `r` is label `σ r`, where
  `σ` is the position map of the stable argsort of the labels.
-/
import proofs.«424771_j14370960572484_1_alg».proof.Proof.SpecArrays
import proofs.«424771_j14370960572484_1_alg».proof.Proof.Sorting

noncomputable section

namespace Cert.Spec

open Idealize.ShloMosaic Idealize.ShloMosaic.ValueIdx

/-- The rows of `D` in the order of the stable argsort of `L`. -/
def sortedData (D : SBC.Idx → EReal) (L : SB.Idx → BitVec 32) : SBC.Idx → EReal :=
  fun p => D (ix2 (Cert.Sorting.perm L (p 0)) (p 1))

/-- The labels in that order. -/
def sortedLbls (L : SB.Idx → BitVec 32) : SB.Idx → BitVec 32 := fun j => L (ix1 (Cert.Sorting.perm L (j 0)))

end Cert.Spec

end
-- ==== Proof.KernelSorted.lean ====
/-
  The kernel's sorted results read at an index.

  The positions carried through the stable argsort are below 2^21, so as 32-bit words they are not negative: the wrap
  leaves them alone, and read signed each is the position itself. The row gather and the entry gather at those start
  words therefore return row `σ r` and label `σ r` at place `r`.
-/
import proofs.«424771_j14370960572484_1_alg».proof.Proof.KernelTail
import proofs.«424771_j14370960572484_1_alg».proof.Proof.RefSpec
import proofs.«424771_j14370960572484_1_alg».proof.Proof.SpecSorted

noncomputable section

namespace Cert.KernelIdeal.Sorted

open Cert.KernelIdeal Cert.KernelIdeal.Gen Cert.KernelIdeal.Tail
open Idealize.ShloMosaic Idealize.ShloMosaic.ValueIdx

variable (L : IVec S2097152 32)

/-- The wrapped index column is the column of the wrapped words. -/
theorem wrapCol_eq (o : IVec S2097152 32) :
    wrapCol o = Cert.ReferenceIdeal.RefDefs.col (Cert.ReferenceIdeal.RefDefs.wrap o 2097152#32) := rfl

/-- The argsort's entry at place `r`, wrapped and read signed, is the position the sort puts there. -/
theorem wrapCol_toInt (r : Fin 2097152) :
    (wrapCol (order L) (ix2 r (0 : Fin 1))).toInt = ((Cert.Sorting.perm L r).val : ℤ) := by
  have ho : order L (ix1 r) = BitVec.ofNat 32 (Cert.Sorting.perm L r).val := Cert.Sorting.argsort_apply L (ix1 r)
  rw [wrapCol_eq, Cert.ReferenceIdeal.RefRows.col_apply,
    Cert.ReferenceIdeal.RefRows.wrap_apply_of_nonneg _ _ _ (by rw [ho]; exact Cert.Sorting.not_neg _), ho]
  exact Cert.Sorting.toInt_pos _

/-- Sorted row `r` is row `σ r`; sorted label `r` is label `σ r`. -/
theorem sortedRows_apply (D : FVec Ideal S2097152x16 .f32) (r : Fin 2097152) (k : Fin 16) :
    sortedRows D L (ix2 r k) = D (ix2 (Cert.Sorting.perm L r) k) :=
  Cert.ReferenceIdeal.RefSpec.rows_at gather_S2097152x16_S2097152x1_S2097152x16_1_0_n_n_0_1_116 rfl rfl rfl rfl rfl rfl rfl D
    (wrapCol (order L)) r k (Cert.Sorting.perm L r) (wrapCol_toInt L r)

theorem sortedLabels_apply (r : Fin 2097152) :
    sortedLabels L (ix1 r) = L (ix1 (Cert.Sorting.perm L r)) :=
  Cert.ReferenceIdeal.RefSpec.entry_at gather_S2097152_S2097152x1_S2097152_n_0_n_n_0_1_1 rfl rfl rfl rfl rfl rfl rfl L
    (wrapCol (order L)) r (Cert.Sorting.perm L r) (wrapCol_toInt L r)

/-- So the kernel's two sorted results are the program-free sorted forms. -/
theorem sortedRows_eq (D : FVec Ideal S2097152x16 .f32) : sortedRows D L = Cert.Spec.sortedData D L := by
  funext p
  obtain ⟨r, k, rfl⟩ : ∃ (r : Fin 2097152) (k : Fin 16), p = ix2 r k := ⟨p 0, p 1, eq_ix2 p⟩
  exact sortedRows_apply L D r k

theorem sortedLabels_eq : sortedLabels L = Cert.Spec.sortedLbls L := by
  funext j
  obtain ⟨r, rfl⟩ : ∃ r : Fin 2097152, j = ix1 r := ⟨j 0, eq_ix1 j⟩
  exact sortedLabels_apply L r

end Cert.KernelIdeal.Sorted

/-! The reference's two sorted results likewise. -/

namespace Cert.ReferenceIdeal.RefSorted

open Cert.ReferenceIdeal Cert.ReferenceIdeal.Gen Cert.ReferenceIdeal.RefDefs
open Idealize.ShloMosaic Idealize.ShloMosaic.ValueIdx

variable (L : IVec S2097152 32)

theorem sortedRows_eq (D : FVec Ideal S2097152x16 .f32) : sortedRows (F := Ideal) D L = Cert.Spec.sortedData D L := by
  funext p
  obtain ⟨r, k, rfl⟩ : ∃ (r : Fin 2097152) (k : Fin 16), p = ix2 r k := ⟨p 0, p 1, eq_ix2 p⟩
  exact Cert.ReferenceIdeal.RefSpec.sortedRows_apply L D r k

theorem sortedLabels_eq : sortedLabels L = Cert.Spec.sortedLbls L := by
  funext j
  obtain ⟨r, rfl⟩ : ∃ r : Fin 2097152, j = ix1 r := ⟨j 0, eq_ix1 j⟩
  exact Cert.ReferenceIdeal.RefSpec.sortedLabels_apply L r

end Cert.ReferenceIdeal.RefSorted

end
-- ==== Proof.PreRange.lean ====
/-
  What the precondition says of the labels.

  The precondition is one bit: the conjunction of "every logit is finite" and "every label word, read as a signed
  32-bit integer, is at least zero and below sixteen". Each half is a conjunction over a whole array, folded from the
  true bit; the label half compares every word with a constant zero and a constant sixteen repeated over the array and
  joins the two bits entry by entry. Where the bit is one, both halves are one; a fold of conjunctions that is one met
  only ones; so at every entry both comparisons hold, and a word between zero and sixteen as a signed integer is below
  sixteen as a natural number. Only the label half is opened. Nothing here depends on how many labels there are.
-/
import proofs.«424771_j14370960572484_1_alg».proof.Pre_finite_inputs
import Idealize.ShloMosaic.Lib.ReduceAll
import Idealize.ShloMosaic.Lib.ValueIdx
import Idealize.ShloMosaic.Lib.SortFacts

namespace Cert.PreRange

open Idealize.ShloMosaic Idealize.ShloMosaic.ValueIdx

/-- A 32-bit word that, read as a signed integer, is at least zero and below sixteen is below sixteen read as a natural
number: a word that is not negative reads the same both ways. -/
theorem toNat_lt_sixteen (w : BitVec 32) (h0 : (0#32 : BitVec 32).toInt ≤ w.toInt)
    (h16 : w.toInt < (16#32 : BitVec 32).toInt) : w.toNat < 16 := by
  have z : (0#32 : BitVec 32).toInt = 0 := by decide
  have s : (16#32 : BitVec 32).toInt = 16 := by decide
  rw [z] at h0
  rw [s, BitVec.toInt_eq_toNat_of_lt (BitVec.toInt_pos_iff.1 h0)] at h16
  omega

/-- Where the precondition holds every label word is one of the sixteen positions. The precondition is the
conjunction of two conjunctions over whole arrays; the second says of every label word `w` that `0 ≤ w` and `w < 16`
as signed integers, each bound compared against a constant repeated over the array. A conjunction over an array that
came out true was true at every entry, so the two bounds hold at entry `i`. -/
theorem labels_lt [Cert.Pre_finite_inputs.Facts]
    (X : FVec Ideal Cert.Pre_finite_inputs.S2097152x16 .f32) (L : IVec Cert.Pre_finite_inputs.S2097152 32)
    (h : Cert.Pre_finite_inputs.fn (F := Ideal) X L = fun _ => 1#1) :
    ∀ i : Fin 2097152, (L (Shape.Idx.ofFin i)).toNat < 16 := by
  intro i
  haveI : Subsingleton Cert.Pre_finite_inputs.S_.Idx := ⟨fun a b => funext fun d => d.elim0⟩
  have hall := congrFun h ix0
  dsimp only [Cert.Pre_finite_inputs.fn] at hall
  have hlabels := (IntOp.andi_eq_one.1 hall).2
  have hi := Host.reduce_andi_all _ _ _ _ ix0 hlabels (Shape.Idx.ofFin i)
  obtain ⟨hge, hlt⟩ := IntOp.andi_eq_one.1 hi
  exact toNat_lt_sixteen _ (IntOp.cmpi_sge.1 hge) (IntOp.cmpi_slt.1 hlt)

end Cert.PreRange
-- ==== Proof.lean ====
/-
  A margin-insert and label-smoothed softmax cross entropy over 2,097,152 rows of 16 logits, then a stable sort of the
  rows by label: a kernel that makes one pipelined pass over the rows in their original order and sorts afterwards,
  against a reference that sorts first and computes the loss on the sorted rows.

  Under the precondition (finite logits, every label one of the sixteen positions) both programs return the same three
  results over the extended reals. The data: the kernel replaces each row's label logit through the label's one-hot
  mask, the reference through a gather and a scatter at (row, label); with the label among the positions both are the
  row with that one entry replaced, and both then gather the rows in the order of the same stable argsort. The sorted
  labels are the same gather of the same argument. The loss: the kernel adds the rows' losses block by block in the
  original order onto a zero, the reference adds the losses of the sorted rows; a row's loss depends on the row and its
  label alone, the argsort is a bijection of the rows, and a finite sum of extended reals does not depend on the order
  of its terms, so the two sums agree, and both are divided by the same count. Finiteness of the logits is not used.
-/
import proofs.«424771_j14370960572484_1_alg».proof.Defs
import proofs.«424771_j14370960572484_1_alg».proof.Proof.Gen.Kernel
import proofs.«424771_j14370960572484_1_alg».proof.Proof.Gen.Kernel.Skeleton
import proofs.«424771_j14370960572484_1_alg».proof.Proof.Gen.Kernel.Launch
import proofs.«424771_j14370960572484_1_alg».proof.Proof.Gen.Kernel.Points
import proofs.«424771_j14370960572484_1_alg».proof.Proof.Gen.Kernel.Frame
import proofs.«424771_j14370960572484_1_alg».proof.Proof.Gen.KernelIdeal
import proofs.«424771_j14370960572484_1_alg».proof.Proof.Gen.KernelIdeal.Skeleton
import proofs.«424771_j14370960572484_1_alg».proof.Proof.Gen.KernelIdeal.Launch
import proofs.«424771_j14370960572484_1_alg».proof.Proof.Gen.KernelIdeal.Points
import proofs.«424771_j14370960572484_1_alg».proof.Proof.Gen.KernelIdeal.Frame
import proofs.«424771_j14370960572484_1_alg».proof.Proof.Gen.ReferenceIdeal
import proofs.«424771_j14370960572484_1_alg».proof.Proof.Gen.Pre_finite_inputs
import proofs.«424771_j14370960572484_1_alg».proof.Proof.KernelValue
import proofs.«424771_j14370960572484_1_alg».proof.Proof.RefValue
import proofs.«424771_j14370960572484_1_alg».proof.Proof.RefSpec
import proofs.«424771_j14370960572484_1_alg».proof.Proof.KernelSorted
import proofs.«424771_j14370960572484_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => ⟨(h c).2.2.2.1, (h c).2.2.2.2⟩)
    (Cert.ReferenceIdeal.RefValue.run (F := Ideal) m ρ)

/-- The idealization rewrote nothing. -/
theorem preserves : Cert.preserves_Kernel_KernelIdeal := trivial

/-- Both programs end at the sorted rows of the data array, the sorted labels and the mean loss. -/
theorem algebraic : Cert.algebraic_KernelIdeal_ReferenceIdeal := by
  intro m ρ m' ρ' hpre hagree
  have hL : ∀ c : Dev Cert.KernelIdeal.nD, Cert.Spec.InRange (Cert.KernelIdeal.KValue.Larg m c) := fun c i => by
    have h := Cert.PreRange.labels_lt _ _ (hpre c) i
    rwa [Cert.Spec.ofFin_eq_ix1] at h
  refine ⟨fun c => Cert.Spec.sortedData
            (Cert.Spec.dataOf (Cert.KernelIdeal.KValue.Xarg m c) (Cert.KernelIdeal.KValue.Larg m c) (hL c))
            (Cert.KernelIdeal.KValue.Larg m c),
          fun c => Cert.Spec.sortedLbls (Cert.KernelIdeal.KValue.Larg m c),
          fun c => fun _ => Cert.Spec.lossOf (Cert.KernelIdeal.KValue.Xarg m c) (Cert.KernelIdeal.KValue.Larg m c) (hL c),
          ?_, ?_⟩
  · refine (θ_run Cert.KernelIdeal.defs _ _).mono (fun _ h c => ⟨?_, ?_, ?_, (h c).2.2.2.1, (h c).2.2.2.2⟩)
      (Cert.KernelIdeal.Tail.run m ρ)
    · exact ((h c).1.trans (congrArg (fun D => Cert.KernelIdeal.Tail.sortedRows D (Cert.KernelIdeal.KValue.Larg m c))
        (Cert.KernelIdeal.KValue.data_eq m c (hL c)))).trans
        (Cert.KernelIdeal.Sorted.sortedRows_eq (Cert.KernelIdeal.KValue.Larg m c) _)
    · exact (h c).2.1.trans (Cert.KernelIdeal.Sorted.sortedLabels_eq (Cert.KernelIdeal.KValue.Larg m c))
    · exact (h c).2.2.1.trans (Cert.KernelIdeal.KValue.mean_eq m c (hL c))
  · refine (θ_run Cert.ReferenceIdeal.defs _ _).mono (fun _ h c => ⟨?_, ?_, ?_, (h c).2.2.2.1, (h c).2.2.2.2⟩)
      (Cert.ReferenceIdeal.RefValue.run (F := Ideal) m' ρ')
    · rw [(h c).1, (hagree c).1, (hagree c).2]
      exact (congrArg (fun D => Cert.ReferenceIdeal.RefDefs.sortedRows (F := Ideal) D (Cert.KernelIdeal.KValue.Larg m c))
        (Cert.ReferenceIdeal.RefSpec.scattered_eq (Cert.KernelIdeal.KValue.Larg m c) (Cert.KernelIdeal.KValue.Xarg m c) (hL c))).trans
        (Cert.ReferenceIdeal.RefSorted.sortedRows_eq (Cert.KernelIdeal.KValue.Larg m c) _)
    · rw [(h c).2.1, (hagree c).2]
      exact Cert.ReferenceIdeal.RefSorted.sortedLabels_eq (Cert.KernelIdeal.KValue.Larg m c)
    · rw [(h c).2.2.1, (hagree c).1, (hagree c).2]
      exact (congrArg (fun D => Cert.ReferenceIdeal.RefDefs.loss (F := Ideal)
          (Cert.ReferenceIdeal.RefDefs.sortedRows (F := Ideal) D (Cert.KernelIdeal.KValue.Larg m c))
          (Cert.ReferenceIdeal.RefDefs.sortedLabels (Cert.KernelIdeal.KValue.Larg m c)))
        (Cert.ReferenceIdeal.RefSpec.scattered_eq (Cert.KernelIdeal.KValue.Larg m c) (Cert.KernelIdeal.KValue.Xarg m c) (hL c))).trans
        (Cert.ReferenceIdeal.RefSpec.loss_eq (Cert.KernelIdeal.KValue.Larg m c) (Cert.KernelIdeal.KValue.Xarg m c) (hL c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
